-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S100000 : Shape := ⟨1, ![100000]⟩
abbrev S512x1024 : Shape := ⟨2, ![512, 1024]⟩
abbrev S1024 : Shape := ⟨1, ![1024]⟩
abbrev S1024x1024 : Shape := ⟨2, ![1024, 1024]⟩
abbrev S1024x512 : Shape := ⟨2, ![1024, 512]⟩
abbrev S512 : Shape := ⟨1, ![512]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg6 : FVec F S1024 .f32) (main_arg7 : FVec F S1024x512 .f32) (main_arg8 : FVec F S512 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg6
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x512 .f32 := Host.absf main_arg7
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S512 .f32 := Host.absf main_arg8
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S100000x512 .f32) (main_arg1 : IVec S2x1600000 32) (main_arg2 : IVec S100000 32) (main_arg3 : FVec F S512x1024 .f32) (main_arg4 : FVec F S1024 .f32) (main_arg5 : FVec F S1024x1024 .f32) (main_arg6 : FVec F S1024 .f32) (main_arg7 : FVec F S1024x512 .f32) (main_arg8 : FVec F S512 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x1024 .f32 := Host.absf main_arg3
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S1024 .f32 := Host.absf main_arg4
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg5
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg6 main_arg7 main_arg8 main_v13 main_v16
-- ==== Kernel.lean ====
abbrev S100000x512 : Shape := ⟨2, ![100000, 512]⟩
abbrev S2x1600000 : Shape := ⟨2, ![2, 1600000]⟩
abbrev S100000 : Shape := ⟨1, ![100000]⟩
abbrev S512x1024 : Shape := ⟨2, ![512, 1024]⟩
abbrev S1024 : Shape := ⟨1, ![1024]⟩
abbrev S1024x1024 : Shape := ⟨2, ![1024, 1024]⟩
abbrev S1024x512 : Shape := ⟨2, ![1024, 512]⟩
abbrev S512 : Shape := ⟨1, ![512]⟩
abbrev S50x1x2000 : Shape := ⟨3, ![50, 1, 2000]⟩
abbrev S1x1024 : Shape := ⟨2, ![1, 1024]⟩
abbrev S1x512 : Shape := ⟨2, ![1, 512]⟩
abbrev S50x128x512 : Shape := ⟨3, ![50, 128, 512]⟩
abbrev S2000x512 : Shape := ⟨2, ![2000, 512]⟩
abbrev S1x1x2000 : Shape := ⟨3, ![1, 1, 2000]⟩
abbrev S1x128x512 : Shape := ⟨3, ![1, 128, 512]⟩
abbrev S2000x1024 : Shape := ⟨2, ![2000, 1024]⟩
abbrev S1x2000 : Shape := ⟨2, ![1, 2000]⟩
abbrev S128x2000 : Shape := ⟨2, ![128, 2000]⟩
abbrev S128x512 : Shape := ⟨2, ![128, 512]⟩
abbrev S_ : Shape := ⟨0, ![]⟩
abbrev S128 : Shape := ⟨1, ![128]⟩
abbrev S100000x1 : Shape := ⟨2, ![100000, 1]⟩
abbrev S128x1 : Shape := ⟨2, ![128, 1]⟩

abbrev nBuf : Space → Nat
  | .hbm => 28
  | .vmem => 12
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S100000, .i32⟩
  | .hbm, ⟨3, _⟩ => ⟨S512x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x512, .f32⟩
  | .hbm, ⟨8, _⟩ => ⟨S512, .f32⟩
  | .hbm, ⟨9, _⟩ => ⟨S50x1x2000, .i32⟩
  | .hbm, ⟨10, _⟩ => ⟨S512x1024, .bf16⟩
  | .hbm, ⟨11, _⟩ => ⟨S1024x1024, .bf16⟩
  | .hbm, ⟨12, _⟩ => ⟨S1024x512, .bf16⟩
  | .hbm, ⟨13, _⟩ => ⟨S1x1024, .f32⟩
  | .hbm, ⟨14, _⟩ => ⟨S1x1024, .f32⟩
  | .hbm, ⟨15, _⟩ => ⟨S1x512, .f32⟩
  | .hbm, ⟨16, _⟩ => ⟨S50x128x512, .f32⟩
  | .hbm, ⟨17, _⟩ => ⟨S_, .f32⟩
  | .hbm, ⟨18, _⟩ => ⟨S128x512, .f32⟩
  | .hbm, ⟨19, _⟩ => ⟨S_, .f32⟩
  | .hbm, ⟨20, _⟩ => ⟨S100000, .f32⟩
  | .hbm, ⟨21, _⟩ => ⟨S_, .f32⟩
  | .hbm, ⟨22, _⟩ => ⟨S128, .f32⟩
  | .hbm, ⟨23, _⟩ => ⟨S100000x1, .i32⟩
  | .hbm, ⟨24, _⟩ => ⟨S128, .f32⟩
  | .hbm, ⟨25, _⟩ => ⟨S128x1, .f32⟩
  | .hbm, ⟨26, _⟩ => ⟨S128x512, .f32⟩
  | .hbm, ⟨27, _⟩ => ⟨S128x512, .f32⟩
  | .local _ .vmem, ⟨0, _⟩ => ⟨S2000x512, .f32⟩
  | .local _ .vmem, ⟨1, _⟩ => ⟨S2000x512, .f32⟩
  | .local _ .vmem, ⟨2, _⟩ => ⟨S1x1x2000, .i32⟩
  | .local _ .vmem, ⟨3, _⟩ => ⟨S1x1x2000, .i32⟩
  | .local _ .vmem, ⟨4, _⟩ => ⟨S512x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1024x512, .bf16⟩
  | .local _ .vmem, ⟨9, _⟩ => ⟨S1x512, .f32⟩
  | .local _ .vmem, ⟨10, _⟩ => ⟨S1x128x512, .f32⟩
  | .local _ .vmem, ⟨11, _⟩ => ⟨S1x128x512, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S100000_S50x1x2000 : S100000.ShapeCasts S50x1x2000
  bitsLt_bf16_f32 : FTy.bits .bf16 < FTy.bits .f32
  shapeCasts_S1024_S1x1024 : S1024.ShapeCasts S1x1024
  shapeCasts_S512_S1x512 : S512.ShapeCasts S1x512
  inb_S2000x512_S2000x512_0_0 : ∀ a, (![0, 0] : Fin 2 → Nat) a + S2000x512.size a ≤ S2000x512.size a
  h_S2000x512 : 0 < S2000x512.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2000x1024 : S1x1024.Broadcasts S2000x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S1x1x2000_S1x1x2000_0_0_0 : ∀ a, (![0, 0, 0] : Fin 3 → Nat) a + S1x1x2000.size a ≤ S1x1x2000.size a
  h_S1x1x2000 : 0 < S1x1x2000.numel
  shapeCasts_S1x1x2000_S1x2000 : S1x1x2000.ShapeCasts S1x2000
  iota_S128x2000_d0_w32 : S128x2000.Iotas .tc 32 [0]
  broadcasts_S1x2000_S128x2000 : S1x2000.Broadcasts S128x2000
  natLt_1_32 : 1 < 32
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  shapeCasts_S128x512_S1x128x512 : S128x512.ShapeCasts S1x128x512
  reducesTo_S50x128x512_S128x512_d0 : S50x128x512.ReducesTo [0] S128x512
  h_S_ : 0 < S_.numel
  bcast_S_S100000 : S_.BroadcastsInDim S100000 (![] : Fin 0 → Fin S100000.rank)
  bcast_S_S128 : S_.BroadcastsInDim S128 (![] : Fin 0 → Fin S128.rank)
  bcast_S100000_S100000x1_0 : S100000.BroadcastsInDim S100000x1 (![0] : Fin 1 → Fin S100000x1.rank)
  bcast_S128_S128x1_0 : S128.BroadcastsInDim S128x1 (![0] : Fin 1 → Fin S128x1.rank)
  bcast_S128x1_S128x512_0_1 : S128x1.BroadcastsInDim S128x512 (![0, 1] : Fin 2 → Fin S128x512.rank)
  dot_S2000x512_S512x1024_S2000x1024_1_0_0_1_n_n_wf : DotDims.WF S2000x512 S512x1024 S2000x1024 [1] [0] [0] [1] [] []
  dot_S2000x1024_S1024x1024_S2000x1024_1_0_0_1_n_n_wf : DotDims.WF S2000x1024 S1024x1024 S2000x1024 [1] [0] [0] [1] [] []
  dot_S2000x1024_S1024x512_S2000x512_1_0_0_1_n_n_wf : DotDims.WF S2000x1024 S1024x512 S2000x512 [1] [0] [0] [1] [] []
  dot_S128x2000_S2000x512_S128x512_1_0_0_1_n_n_wf : DotDims.WF S128x2000 S2000x512 S128x512 [1] [0] [0] [1] [] []
  scatter_S128_S100000x1_S100000_n_0_0_1_wf : ScatterDims.WF S128 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2000.size a ≤ S50x1x2000.size a
  hwx0_1 : ∀ i : grid0.Coords, EltTy.bits .i32 = 32 ∨ (Rect.block (s := S50x1x2000) S1x1x2000.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .bf16 = 32 ∨ (Rect.block (s := S512x1024) S512x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S1024x512.size a
  hwx0_6 : ∀ i : grid0.Coords, EltTy.bits .bf16 = 32 ∨ (Rect.block (s := S1024x512) S1024x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x128x512.size a ≤ S50x128x512.size a
  hwx0_8 : ∀ i : grid0.Coords, EltTy.bits .f32 = 32 ∨ (Rect.block (s := S50x128x512) S1x128x512.size (cc0_transform_8 i) (hinb0_8 i)).WholeWords (EltTy.packing .f32)

variable [Facts₀]

def dot_S2000x512_S512x1024_S2000x1024_1_0_0_1_n_n : DotDims S2000x512 S512x1024 S2000x1024 where
  lhsContracting := [1]
  rhsContracting := [0]
  lhsNonContracting := [0]
  rhsNonContracting := [1]
  lhsBatch := []
  rhsBatch := []
  wf := dot_S2000x512_S512x1024_S2000x1024_1_0_0_1_n_n_wf
def dot_S2000x1024_S1024x1024_S2000x1024_1_0_0_1_n_n : DotDims S2000x1024 S1024x1024 S2000x1024 where
  lhsContracting := [1]
  rhsContracting := [0]
  lhsNonContracting := [0]
  rhsNonContracting := [1]
  lhsBatch := []
  rhsBatch := []
  wf := dot_S2000x1024_S1024x1024_S2000x1024_1_0_0_1_n_n_wf
def dot_S2000x1024_S1024x512_S2000x512_1_0_0_1_n_n : DotDims S2000x1024 S1024x512 S2000x512 where
  lhsContracting := [1]
  rhsContracting := [0]
  lhsNonContracting := [0]
  rhsNonContracting := [1]
  lhsBatch := []
  rhsBatch := []
  wf := dot_S2000x1024_S1024x512_S2000x512_1_0_0_1_n_n_wf
def dot_S128x2000_S2000x512_S128x512_1_0_0_1_n_n : DotDims S128x2000 S2000x512 S128x512 where
  lhsContracting := [1]
  rhsContracting := [0]
  lhsNonContracting := [0]
  rhsNonContracting := [1]
  lhsBatch := []
  rhsBatch := []
  wf := dot_S128x2000_S2000x512_S128x512_1_0_0_1_n_n_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x2000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1024x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x128x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S100000 : Shape := ⟨1, ![100000]⟩
abbrev S512x1024 : Shape := ⟨2, ![512, 1024]⟩
abbrev S1024 : Shape := ⟨1, ![1024]⟩
abbrev S1024x1024 : Shape := ⟨2, ![1024, 1024]⟩
abbrev S1024x512 : Shape := ⟨2, ![1024, 512]⟩
abbrev S512 : Shape := ⟨1, ![512]⟩
abbrev S100000x1024 : Shape := ⟨2, ![100000, 1024]⟩
abbrev S1x1024 : Shape := ⟨2, ![1, 1024]⟩
abbrev S_ : Shape := ⟨0, ![]⟩
abbrev S1x512 : Shape := ⟨2, ![1, 512]⟩
abbrev S128x512 : Shape := ⟨2, ![128, 512]⟩
abbrev S100000x1 : Shape := ⟨2, ![100000, 1]⟩
abbrev S128 : Shape := ⟨1, ![128]⟩
abbrev S128x1 : Shape := ⟨2, ![128, 1]⟩

abbrev nBuf : Space → Nat
  | .hbm => 43
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S100000, .i32⟩
  | .hbm, ⟨3, _⟩ => ⟨S512x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x512, .f32⟩
  | .hbm, ⟨8, _⟩ => ⟨S512, .f32⟩
  | .hbm, ⟨9, _⟩ => ⟨S100000x1024, .f32⟩
  | .hbm, ⟨10, _⟩ => ⟨S1x1024, .f32⟩
  | .hbm, ⟨11, _⟩ => ⟨S100000x1024, .f32⟩
  | .hbm, ⟨12, _⟩ => ⟨S100000x1024, .f32⟩
  | .hbm, ⟨13, _⟩ => ⟨S_, .f32⟩
  | .hbm, ⟨14, _⟩ => ⟨S100000x1024, .f32⟩
  | .hbm, ⟨15, _⟩ => ⟨S100000x1024, .f32⟩
  | .hbm, ⟨16, _⟩ => ⟨S100000x1024, .f32⟩
  | .hbm, ⟨17, _⟩ => ⟨S1x1024, .f32⟩
  | .hbm, ⟨18, _⟩ => ⟨S100000x1024, .f32⟩
  | .hbm, ⟨19, _⟩ => ⟨S100000x1024, .f32⟩
  | .hbm, ⟨20, _⟩ => ⟨S_, .f32⟩
  | .hbm, ⟨21, _⟩ => ⟨S100000x1024, .f32⟩
  | .hbm, ⟨22, _⟩ => ⟨S100000x1024, .f32⟩
  | .hbm, ⟨23, _⟩ => ⟨S100000x512, .f32⟩
  | .hbm, ⟨24, _⟩ => ⟨S1x512, .f32⟩
  | .hbm, ⟨25, _⟩ => ⟨S100000x512, .f32⟩
  | .hbm, ⟨26, _⟩ => ⟨S100000x512, .f32⟩
  | .hbm, ⟨27, _⟩ => ⟨S_, .f32⟩
  | .hbm, ⟨28, _⟩ => ⟨S100000x512, .f32⟩
  | .hbm, ⟨29, _⟩ => ⟨S100000x512, .f32⟩
  | .hbm, ⟨30, _⟩ => ⟨S_, .f32⟩
  | .hbm, ⟨31, _⟩ => ⟨S128x512, .f32⟩
  | .hbm, ⟨32, _⟩ => ⟨S100000x1, .i32⟩
  | .hbm, ⟨33, _⟩ => ⟨S128x512, .f32⟩
  | .hbm, ⟨34, _⟩ => ⟨S_, .f32⟩
  | .hbm, ⟨35, _⟩ => ⟨S100000, .f32⟩
  | .hbm, ⟨36, _⟩ => ⟨S_, .f32⟩
  | .hbm, ⟨37, _⟩ => ⟨S128, .f32⟩
  | .hbm, ⟨38, _⟩ => ⟨S100000x1, .i32⟩
  | .hbm, ⟨39, _⟩ => ⟨S128, .f32⟩
  | .hbm, ⟨40, _⟩ => ⟨S128x1, .f32⟩
  | .hbm, ⟨41, _⟩ => ⟨S128x512, .f32⟩
  | .hbm, ⟨42, _⟩ => ⟨S128x512, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_cst : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call2_cst : Ref sig .tc := ⟨.hbm, 27, rfl⟩
abbrev main_call2_v0 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_0 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S100000x1024_0_1 : S1x1024.BroadcastsInDim S100000x1024 (![0, 1] : Fin 2 → Fin S100000x1024.rank)
  bcast_S_S100000x1024 : S_.BroadcastsInDim S100000x1024 (![] : Fin 0 → Fin S100000x1024.rank)
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  bcast_S_S100000x512 : S_.BroadcastsInDim S100000x512 (![] : Fin 0 → Fin S100000x512.rank)
  bcast_S_S128x512 : S_.BroadcastsInDim S128x512 (![] : Fin 0 → Fin S128x512.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S128 : S_.BroadcastsInDim S128 (![] : Fin 0 → Fin S128.rank)
  bcast_S128_S128x1_0 : S128.BroadcastsInDim S128x1 (![0] : Fin 1 → Fin S128x1.rank)
  bcast_S128x1_S128x512_0_1 : S128x1.BroadcastsInDim S128x512 (![0, 1] : Fin 2 → Fin S128x512.rank)
  dot_S100000x512_S512x1024_S100000x1024_1_0_0_1_n_n_wf : DotDims.WF S100000x512 S512x1024 S100000x1024 [1] [0] [0] [1] [] []
  dot_S100000x1024_S1024x1024_S100000x1024_1_0_0_1_n_n_wf : DotDims.WF S100000x1024 S1024x1024 S100000x1024 [1] [0] [0] [1] [] []
  dot_S100000x1024_S1024x512_S100000x512_1_0_0_1_n_n_wf : DotDims.WF S100000x1024 S1024x512 S100000x512 [1] [0] [0] [1] [] []
  scatter_S128x512_S100000x1_S100000x512_1_0_0_1_wf : ScatterDims.WF S128x512 S100000x1 S100000x512 [1] [0] [0] 1
  scatter_S128_S100000x1_S100000_n_0_0_1_wf : ScatterDims.WF S128 S100000x1 S100000 [] [0] [0] 1

variable [Facts₀]

def dot_S100000x512_S512x1024_S100000x1024_1_0_0_1_n_n : DotDims S100000x512 S512x1024 S100000x1024 where
  lhsContracting := [1]
  rhsContracting := [0]
  lhsNonContracting := [0]
  rhsNonContracting := [1]
  lhsBatch := []
  rhsBatch := []
  wf := dot_S100000x512_S512x1024_S100000x1024_1_0_0_1_n_n_wf
def dot_S100000x1024_S1024x1024_S100000x1024_1_0_0_1_n_n : DotDims S100000x1024 S1024x1024 S100000x1024 where
  lhsContracting := [1]
  rhsContracting := [0]
  lhsNonContracting := [0]
  rhsNonContracting := [1]
  lhsBatch := []
  rhsBatch := []
  wf := dot_S100000x1024_S1024x1024_S100000x1024_1_0_0_1_n_n_wf
def dot_S100000x1024_S1024x512_S100000x512_1_0_0_1_n_n : DotDims S100000x1024 S1024x512 S100000x512 where
  lhsContracting := [1]
  rhsContracting := [0]
  lhsNonContracting := [0]
  rhsNonContracting := [1]
  lhsBatch := []
  rhsBatch := []
  wf := dot_S100000x1024_S1024x512_S100000x512_1_0_0_1_n_n_wf
def scatter_S128x512_S100000x1_S100000x512_1_0_0_1 : ScatterDims S128x512 S100000x1 S100000x512 where
  updateWindowDims := [1]
  insertedWindowDims := [0]
  scatterDimsToOperandDims := [0]
  indexVectorDim := 1
  wf := scatter_S128x512_S100000x1_S100000x512_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf

class Facts : Prop extends Facts₀ where

variable [Facts]
-- ==== Proof.LibPlainDot.lean ====
/-
  A plain matrix product read at an element, on the extended reals.

  For the dimension numbers of a plain product — `[M, K]` by `[K, N]`, the left operand's axis 1 contracted with the
  right operand's axis 0, no batch axes — the operand indices at output element `(a, b)` and contraction coordinate
  `k` are `(a, k)` and `(k, b)`. So a product accumulated into the zero splat is, at `(a, b)`, the plain sum
  `∑ k : Fin K, lhs (a, k) * rhs (k, b)`, and so is the host's `dot_general`.
-/
import Idealize.ShloMosaic.PureOps.Ideal.Laws
import Idealize.ShloMosaic.Lib.ValueIdx

noncomputable section

open scoped BigOperators

namespace Cert.Lib

open Idealize.ShloMosaic Idealize.ShloMosaic.ValueIdx

/-- The dimension numbers of a plain product `[M, K] × [K, N] → [M, N]`: `lhs_contracting = [1]`,
    `rhs_contracting = [0]`, the other axes the result's, no batch axes. At a printed record every field is `rfl`. -/
structure PlainDot {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {M K N : Nat} {d : DotDims ⟨2, ![M, K]⟩ ⟨2, ![K, N]⟩ ⟨2, ![M, N]⟩}

/-- A plain product contracts one axis. -/
theorem PlainDot.rank_contr (hd : PlainDot d) : d.contr.rank = 1 := by
  rw [d.rank_contr, hd.lc]; rfl

/-- The contracted axis has extent `K`. -/
theorem PlainDot.size_contr (hd : PlainDot d) : d.contr.size ⟨0, by rw [hd.rank_contr]; exact Nat.one_pos⟩ = K := by
  obtain ⟨h1, h2, h3, h4, h5, h6⟩ := hd
  obtain ⟨lc, rc, ln, rn, lb, rb, wf⟩ := d
  simp only at h1 h2 h3 h4 h5 h6
  subst h1 h2 h3 h4 h5 h6
  rfl

/-- The left operand's row is the output's row. -/
theorem PlainDot.lhs0 (hd : PlainDot d) (i : (⟨2, ![M, N]⟩ : Shape).Idx) (q : d.contr.Idx) :
    (d.lhsIdx i q 0).val = (i 0).val := by
  obtain ⟨h1, h2, h3, h4, h5, h6⟩ := hd
  obtain ⟨lc, rc, ln, rn, lb, rb, wf⟩ := d
  simp only at h1 h2 h3 h4 h5 h6
  subst h1 h2 h3 h4 h5 h6
  unfold DotDims.lhsIdx
  rw [dif_neg (by simp), dif_pos (by simp)]
  rfl

/-- The left operand's column is the contraction coordinate. -/
theorem PlainDot.lhs1 (hd : PlainDot d) (i : (⟨2, ![M, N]⟩ : Shape).Idx) (q : d.contr.Idx) :
    (d.lhsIdx i q 1).val = (q ⟨0, by rw [hd.rank_contr]; exact Nat.one_pos⟩).val :=
  d.lhsIdx_val_of_single hd.lc i q

/-- The right operand's row is the contraction coordinate. -/
theorem PlainDot.rhs0 (hd : PlainDot d) (i : (⟨2, ![M, N]⟩ : Shape).Idx) (q : d.contr.Idx) :
    (d.rhsIdx i q 0).val = (q ⟨0, by rw [hd.rank_contr]; exact Nat.one_pos⟩).val :=
  d.rhsIdx_val_of_single hd.rc i q

/-- The right operand's column is the output's column. -/
theorem PlainDot.rhs1 (hd : PlainDot d) (i : (⟨2, ![M, N]⟩ : Shape).Idx) (q : d.contr.Idx) :
    (d.rhsIdx i q 1).val = (i 1).val := by
  obtain ⟨h1, h2, h3, h4, h5, h6⟩ := hd
  obtain ⟨lc, rc, ln, rn, lb, rb, wf⟩ := d
  simp only at h1 h2 h3 h4 h5 h6
  subst h1 h2 h3 h4 h5 h6
  unfold DotDims.rhsIdx
  rw [dif_neg (by simp), dif_pos (by simp)]
  rfl

/-- The contraction of a plain product, re-indexed by the contracted coordinate: at output element `(a, b)` it is
    `∑ k : Fin K, lhs (a, k) * rhs (k, b)`. -/
theorem PlainDot.sum_contr (hd : PlainDot d) (lhs : (⟨2, ![M, K]⟩ : Shape).Idx → EReal)
    (rhs : (⟨2, ![K, N]⟩ : Shape).Idx → EReal) (a : Fin M) (b : Fin N) :
    ∑ q : d.contr.Idx, lhs (d.lhsIdx (ix2 a b) q) * rhs (d.rhsIdx (ix2 a b) q)
      = ∑ k : Fin K, lhs (ix2 a k) * rhs (ix2 k b) := by
  rw [← Equiv.sum_comp (contrEquiv1 d K hd.rank_contr hd.size_contr).symm]
  refine Finset.sum_congr rfl fun k _ => ?_
  have hk := contrEquiv1_symm_val d K hd.rank_contr hd.size_contr k
  have el : d.lhsIdx (ix2 a b) ((contrEquiv1 d K hd.rank_contr hd.size_contr).symm k) = ix2 a k :=
    funext fun x => Fin.ext (by
      match x with
      | ⟨0, _⟩ => exact hd.lhs0 _ _
      | ⟨1, _⟩ => exact (hd.lhs1 _ _).trans hk)
  have er : d.rhsIdx (ix2 a b) ((contrEquiv1 d K hd.rank_contr hd.size_contr).symm k) = ix2 k b :=
    funext fun x => Fin.ext (by
      match x with
      | ⟨0, _⟩ => exact (hd.rhs0 _ _).trans hk
      | ⟨1, _⟩ => exact hd.rhs1 _ _)
  rw [el, er]

/-- A plain product accumulated into the zero splat, at element `(a, b)`: `∑ k, lhs (a, k) * rhs (k, b)`. -/
theorem PlainDot.matmul_zero_apply (hd : PlainDot d) {φ₁ φ₂ : FTy} (prec : Option ContractPrecision)
    (lhs : FVec Ideal ⟨2, ![M, K]⟩ φ₁) (rhs : FVec Ideal ⟨2, ![K, N]⟩ φ₂) (a : Fin M) (b : Fin N) :
    FloatOps.matmul d prec lhs rhs (constant ⟨2, ![M, N]⟩ .f32 0x00000000#32) (ix2 a b)
      = ∑ k : Fin K, lhs (ix2 a k) * rhs (ix2 k b) :=
  (Ideal.matmul_constant_zero_apply d prec lhs rhs (ix2 a b)).trans (hd.sum_contr lhs rhs a b)

/-- The host's plain `dot_general` at element `(a, b)`: the same sum. -/
theorem PlainDot.dotGeneral_apply (hd : PlainDot d) {φ₁ φ₂ : FTy} (prec : Option ContractPrecision) (sched : HostSchedule)
    (lhs : FVec Ideal ⟨2, ![M, K]⟩ φ₁) (rhs : FVec Ideal ⟨2, ![K, N]⟩ φ₂) (a : Fin M) (b : Fin N) :
    FloatOps.dotGeneral d prec sched lhs rhs (ix2 a b) = ∑ k : Fin K, lhs (ix2 a k) * rhs (ix2 k b) :=
  (Ideal.dotGeneral_apply d prec sched lhs rhs (ix2 a b)).trans (hd.sum_contr lhs rhs a b)

end Cert.Lib

end
-- ==== Proof.Mlp.lean ====
/-
  The mathematics both programs compute, and how a rectified dense layer and a one-hot pooling product written with
  vector operations read at an element, on the extended reals.

  A node's features pass through three dense layers with a rectifier, `max (∑ k, a k * W k j + b j) 0`; a graph's
  pooled feature is the sum of its nodes' features. A product with a 0/1 membership matrix — entry `(g, n)` one when
  node `n`'s graph word is the word of `g`, else zero — computes that sum for the nodes of one tile.
-/
import proofs.«425669_j3539053052342_3_alg».proof.Proof.LibPlainDot
import Idealize.ShloMosaic.Lib.Pipeline.Value
import Idealize.ShloMosaic.Lib.StableHlo.Predicate

noncomputable section

open scoped BigOperators

namespace Cert.Spec

open Idealize.ShloMosaic Idealize.ShloMosaic.ValueIdx Cert.Lib

/-- One dense layer with a rectifier, on one row: `max (∑ k, a k * W k j + b j) 0`, the zero kept as the f32 zero
    word's value. -/
def dense {K J : Nat} (a : Fin K → EReal) (W : Fin K → Fin J → EReal) (b : Fin J → EReal) (j : Fin J) : EReal :=
  max ((∑ k : Fin K, a k * W k j) + b j) (Ideal.ofBits .f32 0x00000000#32)

/-- The three layers on one row of 512 features: 512 → 1024 → 1024 → 512. -/
def mlp (x : Fin 512 → EReal) (W0 : Fin 512 → Fin 1024 → EReal) (b0 : Fin 1024 → EReal)
    (W1 : Fin 1024 → Fin 1024 → EReal) (b1 : Fin 1024 → EReal) (W2 : Fin 1024 → Fin 512 → EReal) (b2 : Fin 512 → EReal) :
    Fin 512 → EReal :=
  dense (dense (dense x W0 b0) W1 b1) W2 b2

/-- A dense layer written with vector operations — a plain product into the zero splat, the bias row `[1, J]`
    broadcast down the rows, the maximum with a splat `z` — read at row `n`, column `j`. -/
theorem dense_vec_apply {M K J : Nat} {φ₁ φ₂ : FTy} (d : DotDims ⟨2, ![M, K]⟩ ⟨2, ![K, J]⟩ ⟨2, ![M, J]⟩) (hd : PlainDot d)
    (A : FVec Ideal ⟨2, ![M, K]⟩ φ₁) (W : FVec Ideal ⟨2, ![K, J]⟩ φ₂)
    (hW : (⟨2, ![K, J]⟩ : Shape).ShapeCasts ⟨2, ![K, J]⟩)
    (bias : FVec Ideal ⟨2, ![1, J]⟩ .f32) (hb : (⟨2, ![1, J]⟩ : Shape).ShapeCasts ⟨2, ![1, J]⟩)
    (hbr : (⟨2, ![1, J]⟩ : Shape).Broadcasts ⟨2, ![M, J]⟩) (z : Ideal .f32) (n : Fin M) (j : Fin J) :
    maximumf (addf (matmul d none A (shapeCast ⟨2, ![K, J]⟩ W hW) (constant ⟨2, ![M, J]⟩ .f32 0x00000000#32))
        (broadcastTo ⟨2, ![M, J]⟩ (shapeCast ⟨2, ![1, J]⟩ bias hb) hbr)) (broadcast ⟨2, ![M, J]⟩ z) (ix2 n j)
      = max ((∑ k : Fin K, A (ix2 n k) * W (ix2 k j)) + bias (ix2 0 j)) z := by
  rw [shapeCast_self, shapeCast_self]
  show max (FloatOps.matmul d none A W (constant ⟨2, ![M, J]⟩ .f32 0x00000000#32) (ix2 n j)
      + broadcastTo ⟨2, ![M, J]⟩ bias hbr (ix2 n j)) z = _
  rw [hd.matmul_zero_apply none A W n j]
  rw [broadcastTo_apply bias hbr (ix2 n j) (ix2 0 j) (fun a => by
    match a with
    | ⟨0, _⟩ => show 0 = if (1 : Nat) = 1 then 0 else _; rw [if_pos rfl]
    | ⟨1, _⟩ =>
      show j.val = if J = 1 then 0 else j.val
      by_cases hJ : J = 1
      · rw [if_pos hJ]; have := j.isLt; omega
      · rw [if_neg hJ])]

/-- A compared pair of words, widened and converted: `1` when the words are equal, `0` when not. -/
theorem mask_word {w : Nat} (a b : BitVec w) :
    ((((IntOp.cmpi .eq a b).setWidth 32).toInt : ℝ) : EReal) = if a = b then 1 else 0 := by
  by_cases h : a = b
  · rw [if_pos h, StableHlo.Predicate.cmpi_eq_iff.2 h]
    have e : ((1#1 : BitVec 1).setWidth 32).toInt = 1 := by decide
    rw [e]; simp
  · rw [if_neg h, eq_zero_of_ne_one (mt StableHlo.Predicate.cmpi_eq_iff.1 h)]
    have e : ((0#1 : BitVec 1).setWidth 32).toInt = 0 := by decide
    rw [e]; simp

/-- The pooling product written with vector operations — the membership matrix `[G, B]` from a word comparison
    (compared, widened, converted, narrowed), times the features `[B, D]`, into the zero splat, stored with a leading
    unit axis — read at `(0, g, c)`: the sum over the tile's nodes of the 0/1 membership times the feature. -/
theorem pool_vec_apply {G B D : Nat} (d : DotDims ⟨2, ![G, B]⟩ ⟨2, ![B, D]⟩ ⟨2, ![G, D]⟩) (hd : PlainDot d)
    (ids labels : IVec ⟨2, ![G, B]⟩ 32) (feat : FVec Ideal ⟨2, ![B, D]⟩ .bf16) (h32 : 1 < 32) (hbf : FTy.bf16.bits < FTy.f32.bits)
    (hc : (⟨2, ![G, D]⟩ : Shape).ShapeCasts ⟨3, ![1, G, D]⟩) (g : Fin G) (c : Fin D) :
    shapeCast ⟨3, ![1, G, D]⟩ (matmul d none (truncf .bf16 (sitofp (F := Ideal) .f32 (extui 32 (cmpi .eq ids labels) h32)) hbf) feat
        (constant ⟨2, ![G, D]⟩ .f32 0x00000000#32)) hc (ix3 0 g c)
      = ∑ n : Fin B, (if ids (ix2 g n) = labels (ix2 g n) then (1 : EReal) else 0) * feat (ix2 n c) := by
  rw [shapeCast_addUnit_apply ![G, D] _ hc (ix3 0 g c)]
  have e : (fun a : Fin 2 => (ix3 (0 : Fin 1) g c) a.succ) = ix2 g c := by
    funext a
    match a with
    | ⟨0, _⟩ => rfl
    | ⟨1, _⟩ => rfl
  rw [e]
  refine (hd.matmul_zero_apply none _ feat g c).trans ?_
  refine Finset.sum_congr rfl fun n _ => ?_
  exact congrArg (· * feat (ix2 n c)) (mask_word (ids (ix2 g n)) (labels (ix2 g n)))

end Cert.Spec

end
-- ==== Proof.KernelPay.lean ====
/-
  What the kernel's body computes on one tile of 2000 nodes, element by element, on the extended reals: the three
  rectified dense layers on each node's row, then the product of the tile's 0/1 membership matrix with the features.
-/
import proofs.«425669_j3539053052342_3_alg».proof.Proof.Gen.KernelIdeal.Skeleton
import proofs.«425669_j3539053052342_3_alg».proof.Proof.Mlp

noncomputable section

open scoped BigOperators

namespace Cert.KernelIdeal.Pay

open Cert.KernelIdeal Cert.KernelIdeal.Gen Idealize.ShloMosaic Idealize.ShloMosaic.ValueIdx Cert.Lib Cert.Spec

theorem plain0 : PlainDot dot_S2000x512_S512x1024_S2000x1024_1_0_0_1_n_n := ⟨rfl, rfl, rfl, rfl, rfl, rfl⟩
theorem plain1 : PlainDot dot_S2000x1024_S1024x1024_S2000x1024_1_0_0_1_n_n := ⟨rfl, rfl, rfl, rfl, rfl, rfl⟩
theorem plain2 : PlainDot dot_S2000x1024_S1024x512_S2000x512_1_0_0_1_n_n := ⟨rfl, rfl, rfl, rfl, rfl, rfl⟩
theorem plainPool : PlainDot dot_S128x2000_S2000x512_S128x512_1_0_0_1_n_n := ⟨rfl, rfl, rfl, rfl, rfl, rfl⟩

/-- The tile's features after the three layers: row `n` of the result is the three-layer function of row `n` of the
    tile, with the weights and bias rows as loaded. -/
theorem pay2_apply (v0 : Vec Ideal S2000x512 .f32) (v2 : Vec Ideal S512x1024 .bf16) (v5 : Vec Ideal S1x1024 .f32)
    (v12 : Vec Ideal S1024x1024 .bf16) (v15 : Vec Ideal S1x1024 .f32) (v22 : Vec Ideal S1024x512 .bf16)
    (v25 : Vec Ideal S1x512 .f32) (n : Fin 2000) (j : Fin 512) :
    k0_pay2 (F := Ideal) v0 v2 v5 v12 v15 v22 v25 (ix2 n j)
      = mlp (fun i => v0 (ix2 n i)) (fun i k => v2 (ix2 i k)) (fun k => v5 (ix2 0 k))
          (fun i k => v12 (ix2 i k)) (fun k => v15 (ix2 0 k)) (fun i k => v22 (ix2 i k)) (fun k => v25 (ix2 0 k)) j := by
  unfold k0_pay2 mlp
  refine (dense_vec_apply dot_S2000x1024_S1024x512_S2000x512_1_0_0_1_n_n plain2 _ v22 _ v25 _ _ _ n j).trans ?_
  refine congrArg (fun a => dense a (fun i k => v22 (ix2 i k)) (fun k => v25 (ix2 0 k)) j) (funext fun k => ?_)
  refine (dense_vec_apply dot_S2000x1024_S1024x1024_S2000x1024_1_0_0_1_n_n plain1 _ v12 _ v15 _ _ _ n k).trans ?_
  refine congrArg (fun a => dense a (fun i k => v12 (ix2 i k)) (fun k => v15 (ix2 0 k)) k) (funext fun i => ?_)
  exact dense_vec_apply dot_S2000x512_S512x1024_S2000x1024_1_0_0_1_n_n plain0 _ v2 _ v5 _ _ _ n i

/-- The pooling product of a tile: at graph `g`, feature `c`, the sum over the tile's nodes of the membership
    (the compared words equal) times the node's feature. -/
theorem pay1_apply (v31 : FVec Ideal S2000x512 .bf16) (v34 v35 : IVec S128x2000 32) (g : Fin 128) (c : Fin 512) :
    k0_pay1 (F := Ideal) v31 v34 v35 (ix3 0 g c)
      = ∑ n : Fin 2000, (if v34 (ix2 g n) = v35 (ix2 g n) then (1 : EReal) else 0) * v31 (ix2 n c) := by
  unfold k0_pay1
  exact pool_vec_apply dot_S128x2000_S2000x512_S128x512_1_0_0_1_n_n plainPool v34 v35 v31 _ _ _ g c

/-- The row counter along axis 0 of the `[128, 2000]` membership matrix: at `(g, n)` the word of `g`. -/
theorem iota_apply (g : Fin 128) (n : Fin 2000) :
    iota .tc S128x2000 32 [0] iota_S128x2000_d0_w32 (ix2 g n) = BitVec.ofNat 32 g.val :=
  iota_single_apply .tc S128x2000 32 0 iota_S128x2000_d0_w32 (ix2 g n)

/-- The tile's graph words `[1, 1, 2000]` laid along the columns of the `[128, 2000]` matrix: at `(g, n)` node `n`'s
    word. -/
theorem pay3_apply (v32 : Vec Ideal S1x1x2000 .i32) (g : Fin 128) (n : Fin 2000) :
    k0_pay3 (F := Ideal) v32 (ix2 g n) = v32 (ix3 0 0 n) := by
  unfold k0_pay3
  rw [broadcastTo_apply _ broadcasts_S1x2000_S128x2000 (ix2 g n) (ix2 0 n) (fun a => by
    match a with
    | ⟨0, _⟩ => show 0 = if (1 : Nat) = 1 then 0 else _; rw [if_pos rfl]
    | ⟨1, _⟩ => show n.val = if (2000 : Nat) = 1 then 0 else n.val; rw [if_neg (by decide)])]
  rw [shapeCast_dropUnit_apply ![1, 2000] v32 shapeCasts_S1x1x2000_S1x2000 (ix2 0 n)]
  refine congrArg v32 (funext fun a => ?_)
  match a with
  | ⟨0, _⟩ => rfl
  | ⟨1, _⟩ => rfl
  | ⟨2, _⟩ => rfl

/-- WHAT THE BODY STORES for one tile, at graph `g`, feature `c`: the sum over the tile's 2000 nodes of (node `n`'s
    graph word is the word of `g`) times the three-layer feature `c` of node `n`'s row. -/
theorem block_apply (x0 : Vec Ideal S2000x512 .f32) (x1 : Vec Ideal S1x1x2000 .i32) (x2 : Vec Ideal S512x1024 .bf16)
    (x3 : Vec Ideal S1x1024 .f32) (x4 : Vec Ideal S1024x1024 .bf16) (x5 : Vec Ideal S1x1024 .f32)
    (x6 : Vec Ideal S1024x512 .bf16) (x7 : Vec Ideal S1x512 .f32) (g : Fin 128) (c : Fin 512) :
    k0_pay1 (F := Ideal) (k0_pay2 (F := Ideal) x0 x2 x3 x4 x5 x6 x7) (iota .tc S128x2000 32 [0] iota_S128x2000_d0_w32)
        (k0_pay3 (F := Ideal) x1) (ix3 0 g c)
      = ∑ n : Fin 2000, (if BitVec.ofNat 32 g.val = x1 (ix3 0 0 n) then (1 : EReal) else 0)
          * mlp (fun i => x0 (ix2 n i)) (fun i k => x2 (ix2 i k)) (fun k => x3 (ix2 0 k))
              (fun i k => x4 (ix2 i k)) (fun k => x5 (ix2 0 k)) (fun i k => x6 (ix2 i k)) (fun k => x7 (ix2 0 k)) c := by
  refine (pay1_apply _ _ _ g c).trans ?_
  refine Finset.sum_congr rfl fun n _ => ?_
  rw [iota_apply g n, pay3_apply x1 g n, pay2_apply x0 x2 x3 x4 x5 x6 x7 n c]

end Cert.KernelIdeal.Pay

end
-- ==== Proof.LibMaskSum.lean ====
/-
  A 0/1-masked contraction over the extended reals is a sum over the mask's support.

  On the extended reals `x * 0 = 0` and `x * 1 = x` for EVERY `x`, the infinities included (the extended reals are a
  commutative monoid with zero), so a mask factor `if g i = k then 1 else 0` inside a sum keeps exactly the terms with
  `g i = k`, with no finiteness side condition. When the index set is `H` consecutive blocks of `B` and `g` is
  "which block" (`c / B`), the support of block `k` is the `B` positions `B * k + b`, and the sum over it is a sum
  over `Fin B`. The one-hot expansion `∑ h, t h * [q = h] = t q` is the same fact read the other way.
-/
import Mathlib.Data.EReal.Inv
import Mathlib.Algebra.BigOperators.Group.Finset.Basic
import Mathlib.Algebra.BigOperators.Group.Finset.Piecewise

open scoped BigOperators

namespace Cert.Lib

/-- A 0/1 mask factor on the extended reals: `(if c then 1 else 0) * a` is `a` where the condition holds and `0`
    where it does not, for every `a` (infinite ones too). -/
theorem mask_mul (c : Prop) [Decidable c] (a : EReal) : (if c then (1 : EReal) else 0) * a = if c then a else 0 := by
  split_ifs <;> simp

/-- The same with the mask on the right. -/
theorem mul_mask (c : Prop) [Decidable c] (a : EReal) : a * (if c then (1 : EReal) else 0) = if c then a else 0 := by
  split_ifs <;> simp

/-- A masked term of a contraction: `p * ((if c then 1 else 0) * a)` is `p * a` where the condition holds and `0`
    where it does not, for every `p`, `a` on the extended reals. -/
theorem mul_mask_mul (c : Prop) [Decidable c] (p a : EReal) :
    p * ((if c then (1 : EReal) else 0) * a) = if c then p * a else 0 := by
  split_ifs <;> simp

/-- A 0/1-masked contraction is the sum over the mask's support: for finite `ι`, any `g : ι → κ`, `k : κ` and any
    `p a : ι → EReal`, `∑ i, p i * ((if g i = k then 1 else 0) * a i) = ∑ i ∈ univ.filter (g · = k), p i * a i`. -/
theorem sum_mul_mask_mul {ι κ : Type*} [Fintype ι] [DecidableEq κ] (g : ι → κ) (k : κ) (p a : ι → EReal) :
    ∑ i, p i * ((if g i = k then (1 : EReal) else 0) * a i)
      = ∑ i ∈ Finset.univ.filter (fun i => g i = k), p i * a i := by
  rw [Finset.sum_filter]
  exact Finset.sum_congr rfl fun i _ => mul_mask_mul _ _ _

/-- The same for a mask stated by any decidable predicate `q` on the index. -/
theorem sum_mul_maskP_mul {ι : Type*} [Fintype ι] (q : ι → Prop) [DecidablePred q] (p a : ι → EReal) :
    ∑ i, p i * ((if q i then (1 : EReal) else 0) * a i) = ∑ i ∈ Finset.univ.filter q, p i * a i := by
  rw [Finset.sum_filter]
  exact Finset.sum_congr rfl fun i _ => mul_mask_mul _ _ _

/-- A masked sum with the mask as the only other factor: `∑ i, (if q i then 1 else 0) * a i` is the sum of `a` over
    the indices where `q` holds. -/
theorem sum_maskP_mul {ι : Type*} [Fintype ι] (q : ι → Prop) [DecidablePred q] (a : ι → EReal) :
    ∑ i, (if q i then (1 : EReal) else 0) * a i = ∑ i ∈ Finset.univ.filter q, a i := by
  rw [Finset.sum_filter]
  exact Finset.sum_congr rfl fun i _ => mask_mul _ _

/-- Position `B * k + b` of block `k < H` at offset `b < B` lies below `H * B`. -/
theorem block_pos_lt {n H B : Nat} (hn : n = H * B) (k : Fin H) (b : Fin B) : B * k.val + b.val < n := by
  subst hn
  calc B * k.val + b.val < B * k.val + B := Nat.add_lt_add_left b.isLt _
    _ = B * (k.val + 1) := (Nat.mul_succ _ _).symm
    _ ≤ B * H := Nat.mul_le_mul_left B k.isLt
    _ = H * B := Nat.mul_comm _ _

/-- The sum over block `k` of an index set of `H` consecutive blocks of `B`: the indices `c : Fin n`
    (`n = H * B`) with `c / B = k` are the `B` positions `B * k + b`, so the filtered sum is a sum over `Fin B`.
    For any additive commutative monoid. -/
theorem sum_filter_block {α : Type*} [AddCommMonoid α] {n H B : Nat} (hn : n = H * B) (k : Fin H) (f : Fin n → α) :
    ∑ c ∈ Finset.univ.filter (fun c : Fin n => c.val / B = k.val), f c
      = ∑ b : Fin B, f ⟨B * k.val + b.val, block_pos_lt hn k b⟩ := by
  symm
  refine Finset.sum_bij (fun b _ => (⟨B * k.val + b.val, block_pos_lt hn k b⟩ : Fin n)) ?_ ?_ ?_ ?_
  · intro b _
    have hB : 0 < B := Nat.lt_of_le_of_lt (Nat.zero_le _) b.isLt
    simp only [Finset.mem_filter, Finset.mem_univ, true_and]
    rw [Nat.mul_add_div hB, Nat.div_eq_of_lt b.isLt, Nat.add_zero]
  · intro b₁ _ b₂ _ h
    have := congrArg Fin.val h
    simp only at this
    exact Fin.ext (by omega)
  · intro c hc
    simp only [Finset.mem_filter, Finset.mem_univ, true_and] at hc
    have hB : 0 < B := Nat.pos_of_ne_zero (by
      rintro rfl
      have h1 : c.val < H * 0 := lt_of_lt_of_eq c.isLt hn
      exact absurd h1 (by simp))
    refine ⟨⟨c.val % B, Nat.mod_lt _ hB⟩, Finset.mem_univ _, ?_⟩
    apply Fin.ext
    show B * k.val + c.val % B = c.val
    rw [← hc]; exact Nat.div_add_mod _ _
  · intro b _; rfl

/-- The block form of the masked contraction: over `Fin n` with `n = H * B` and the mask "`c` lies in block `k`"
    (`c / B = k`), `∑ c, p c * ((if c / B = k then 1 else 0) * a c) = ∑ b : Fin B, p (B·k + b) * a (B·k + b)`. -/
theorem sum_mul_blockmask_mul {n H B : Nat} (hn : n = H * B) (k : Fin H) (p a : Fin n → EReal) :
    ∑ c : Fin n, p c * ((if c.val / B = k.val then (1 : EReal) else 0) * a c)
      = ∑ b : Fin B, p ⟨B * k.val + b.val, block_pos_lt hn k b⟩ * a ⟨B * k.val + b.val, block_pos_lt hn k b⟩ := by
  rw [sum_mul_maskP_mul (fun c : Fin n => c.val / B = k.val) p a]
  exact sum_filter_block hn k fun c => p c * a c

/-- The one-hot expansion: `∑ h : Fin H, t h * (if j = h then 1 else 0) = t j` on the extended reals. -/
theorem sum_mul_onehot {H : Nat} (t : Fin H → EReal) (j : Fin H) :
    ∑ h : Fin H, t h * (if j = h then (1 : EReal) else 0) = t j := by
  simp only [mul_mask]
  rw [Finset.sum_ite_eq Finset.univ j t, if_pos (Finset.mem_univ _)]

/-- The one-hot expansion with the selected position a natural number `q < H` compared with the summation index's
    value: `∑ h : Fin H, t h * (if q = h then 1 else 0) = t q`. With `q = c / B` for `c < H * B` this is the block
    number of `c`. -/
theorem sum_mul_onehot_val {H : Nat} (t : Fin H → EReal) (q : Nat) (hq : q < H) :
    ∑ h : Fin H, t h * (if q = h.val then (1 : EReal) else 0) = t ⟨q, hq⟩ := by
  rw [← sum_mul_onehot t ⟨q, hq⟩]
  refine Finset.sum_congr rfl fun h _ => ?_
  have : (q = h.val) ↔ ((⟨q, hq⟩ : Fin H) = h) := ⟨fun e => Fin.ext e, fun e => congrArg Fin.val e⟩
  simp only [this]

/-- The block number of a position below `H * B` is below `H`. -/
theorem block_lt {n H B : Nat} (hn : n = H * B) (c : Fin n) : c.val / B < H := by
  have hc : c.val < H * B := lt_of_lt_of_eq c.isLt hn
  exact Nat.div_lt_of_lt_mul (lt_of_lt_of_eq hc (Nat.mul_comm H B))

/-- The one-hot expansion at a block number: for `c : Fin n`, `n = H * B`,
    `∑ h : Fin H, t h * (if c / B = h then 1 else 0) = t (c / B)`. -/
theorem sum_mul_onehot_block {n H B : Nat} (hn : n = H * B) (t : Fin H → EReal) (c : Fin n) :
    ∑ h : Fin H, t h * (if c.val / B = h.val then (1 : EReal) else 0) = t ⟨c.val / B, block_lt hn c⟩ :=
  sum_mul_onehot_val t _ _

end Cert.Lib
-- ==== Proof.LibBlockSum.lean ====
/-
  A sum over `H` consecutive blocks of `B` positions is the sum over all `H * B` positions; and a small natural
  number's 32-bit word is the word whose signed reading is that number.
-/
import proofs.«425669_j3539053052342_3_alg».proof.Proof.LibMaskSum
import Idealize.ShloMosaic.Lib.StableHlo.Predicate
import Mathlib.Algebra.BigOperators.Fin

open scoped BigOperators

namespace Cert.Lib

open Idealize.ShloMosaic

/-- Summing block by block: over `Fin n` with `n = H * B`, the double sum over the block `k` and the offset `b` of
    `f (B * k + b)` is the sum of `f` over every position. For any additive commutative monoid. -/
theorem sum_blocks {α : Type*} [AddCommMonoid α] {n H B : Nat} (hn : n = H * B) (f : Fin n → α) :
    ∑ k : Fin H, ∑ b : Fin B, f ⟨B * k.val + b.val, block_pos_lt hn k b⟩ = ∑ c : Fin n, f c := by
  subst hn
  rw [← Fintype.sum_prod_type (f := fun p : Fin H × Fin B => f ⟨B * p.1.val + p.2.val, block_pos_lt rfl p.1 p.2⟩)]
  refine Fintype.sum_equiv finProdFinEquiv _ _ fun p => congrArg f (Fin.ext ?_)
  show B * p.1.val + p.2.val = (finProdFinEquiv p).val
  rw [finProdFinEquiv_apply_val]
  exact Nat.add_comm _ _

/-- A 32-bit word is the word of a natural number `g < 2 ^ 31` exactly when its signed reading is `g`. -/
theorem ofNat_eq_iff_toInt (g : Nat) (hg : g < 2 ^ 31) (w : BitVec 32) :
    BitVec.ofNat 32 g = w ↔ w.toInt = (g : Int) := by
  constructor
  · rintro rfl
    exact StableHlo.Predicate.toInt_ofNat_small g hg
  · intro h
    apply BitVec.eq_of_toInt_eq
    rw [h, StableHlo.Predicate.toInt_ofNat_small g hg]

end Cert.Lib
-- ==== Proof.Pool.lean ====
/-
  Pooling tile by tile is pooling all nodes at once.

  The 100000 nodes are 50 tiles of 2000. A tile's partial pooled sum at graph `g` adds the features of the tile's nodes
  whose graph word is the word of `g`; the sum of the 50 partial sums is the sum over all nodes whose graph word, read
  signed, is `g` — the membership factor keeps a term or turns it into `0` on every extended real, and addition on the
  extended reals is commutative and associative, so no finiteness is needed.
-/
import proofs.«425669_j3539053052342_3_alg».proof.Proof.Mlp
import proofs.«425669_j3539053052342_3_alg».proof.Proof.LibBlockSum

noncomputable section

open scoped BigOperators

namespace Cert.Spec

open Idealize.ShloMosaic Idealize.ShloMosaic.ValueIdx Cert.Lib

/-- Node `n` of tile `t`: node `2000 t + n`. -/
def node (t : Fin 50) (n : Fin 2000) : Fin 100000 :=
  ⟨2000 * t.val + n.val, block_pos_lt (n := 100000) (H := 50) (B := 2000) rfl t n⟩

/-- Feature `c` of node `m` after the three layers, from the whole arrays. -/
def nodeFeat (x : (⟨2, ![100000, 512]⟩ : Shape).Idx → EReal) (w0 : (⟨2, ![512, 1024]⟩ : Shape).Idx → EReal)
    (b0 : (⟨1, ![1024]⟩ : Shape).Idx → EReal) (w1 : (⟨2, ![1024, 1024]⟩ : Shape).Idx → EReal)
    (b1 : (⟨1, ![1024]⟩ : Shape).Idx → EReal) (w2 : (⟨2, ![1024, 512]⟩ : Shape).Idx → EReal)
    (b2 : (⟨1, ![512]⟩ : Shape).Idx → EReal) (m : Fin 100000) (c : Fin 512) : EReal :=
  mlp (fun i => x (ix2 m i)) (fun i k => w0 (ix2 i k)) (fun k => b0 (ix1 k)) (fun i k => w1 (ix2 i k))
    (fun k => b1 (ix1 k)) (fun i k => w2 (ix2 i k)) (fun k => b2 (ix1 k)) c

/-- Tile `t`'s partial pooled sum at graph `g`, feature `c`. -/
def tilePool (x : (⟨2, ![100000, 512]⟩ : Shape).Idx → EReal) (w0 : (⟨2, ![512, 1024]⟩ : Shape).Idx → EReal)
    (b0 : (⟨1, ![1024]⟩ : Shape).Idx → EReal) (w1 : (⟨2, ![1024, 1024]⟩ : Shape).Idx → EReal)
    (b1 : (⟨1, ![1024]⟩ : Shape).Idx → EReal) (w2 : (⟨2, ![1024, 512]⟩ : Shape).Idx → EReal)
    (b2 : (⟨1, ![512]⟩ : Shape).Idx → EReal) (ids : (⟨1, ![100000]⟩ : Shape).Idx → BitVec 32)
    (t : Fin 50) (g : Fin 128) (c : Fin 512) : EReal :=
  ∑ n : Fin 2000, (if BitVec.ofNat 32 g.val = ids (ix1 (node t n)) then (1 : EReal) else 0)
    * nodeFeat x w0 b0 w1 b1 w2 b2 (node t n) c

/-- The 50 partial sums add up to the sum over all nodes of graph `g` (graph word read signed). -/
theorem sum_tilePool (x : (⟨2, ![100000, 512]⟩ : Shape).Idx → EReal) (w0 : (⟨2, ![512, 1024]⟩ : Shape).Idx → EReal)
    (b0 : (⟨1, ![1024]⟩ : Shape).Idx → EReal) (w1 : (⟨2, ![1024, 1024]⟩ : Shape).Idx → EReal)
    (b1 : (⟨1, ![1024]⟩ : Shape).Idx → EReal) (w2 : (⟨2, ![1024, 512]⟩ : Shape).Idx → EReal)
    (b2 : (⟨1, ![512]⟩ : Shape).Idx → EReal) (ids : (⟨1, ![100000]⟩ : Shape).Idx → BitVec 32)
    (g : Fin 128) (c : Fin 512) :
    ∑ t : Fin 50, tilePool x w0 b0 w1 b1 w2 b2 ids t g c
      = ∑ m ∈ Finset.univ.filter (fun m : Fin 100000 => (ids (ix1 m)).toInt = (g.val : Int)),
          nodeFeat x w0 b0 w1 b1 w2 b2 m c := by
  have hblocks := sum_blocks (n := 100000) (H := 50) (B := 2000) rfl
    (fun m : Fin 100000 => (if BitVec.ofNat 32 g.val = ids (ix1 m) then (1 : EReal) else 0) * nodeFeat x w0 b0 w1 b1 w2 b2 m c)
  refine (show ∑ t : Fin 50, tilePool x w0 b0 w1 b1 w2 b2 ids t g c = _ from hblocks).trans ?_
  rw [sum_maskP_mul (fun m : Fin 100000 => BitVec.ofNat 32 g.val = ids (ix1 m))]
  refine Finset.sum_congr (Finset.filter_congr fun m _ => ?_) fun _ _ => rfl
  exact ofNat_eq_iff_toInt g.val (by have := g.isLt; omega) _

end Cert.Spec

end
-- ==== Proof.KernelValue.lean ====
/-
  The kernel's result array by array, on the extended reals. The pallas_call's output `[50, 128, 512]` ends holding,
  in block `t`, tile `t`'s partial pooled sums: each point reads rows `2000 t … 2000 t + 1999` of the features and of
  the (reshaped) graph words, the whole (converted) weights and the (reshaped) bias rows, and writes block `t` whole;
  the 50 blocks tile the array. The host lines after the call sum the blocks over `t` and divide by the counts.
-/
import proofs.«425669_j3539053052342_3_alg».proof.Proof.Gen.KernelIdeal.Frame
import proofs.«425669_j3539053052342_3_alg».proof.Proof.KernelPay
import proofs.«425669_j3539053052342_3_alg».proof.Proof.Pool
import Idealize.ShloMosaic.Lib.Pipeline.Value
import Idealize.ShloMosaic.Lib.StableHlo.Run

set_option maxRecDepth 16384

noncomputable section

open scoped BigOperators

namespace Cert.KernelIdeal.KValue

open Cert.KernelIdeal Cert.KernelIdeal.Gen Idealize.ShloMosaic Idealize.ShloMosaic.TcCoe Idealize.SL.Sem
open Idealize.ShloMosaic.ValueIdx Cert.Spec Cert.Lib Cert.KernelIdeal.Pay
open Idealize.ShloMosaic.StableHlo
open Idealize.ShloMosaic.Pipeline (Dat)

variable (m : (ℓ : Loc nD τ sig) → Buf (Elt Ideal) ℓ) (ρ : Dev nD → PrngReg)

/-! ## The arrays the region finds -/

/-- The graph words as the region finds them, `[50, 1, 2000]`: at `(t, 0, n)` the word of node `2000 t + n`. -/
theorem V_ids (c : Dev nD) (t : Fin 50) (n : Fin 2000) :
    (V m c main_v0 : S50x1x2000.Idx → BitVec 32) (ix3 t 0 n) = m ((c : Thread nD τ).loc main_arg2) (ix1 (node t n)) := by
  have e : (V m c main_v0 : S50x1x2000.Idx → BitVec 32)
      = shapeCast S50x1x2000 (m ((c : Thread nD τ).loc main_arg2)) shapeCasts_S100000_S50x1x2000 := by
    show StableHlo.after hostOps0 (fun b => m (c, b)) (Proc.devRef .tc main_v0) = _
    after_results
    rfl
  rw [e]
  exact shapeCast_apply _ _ (ix3 t 0 n) (ix1 (node t n)) (by
    rw [Shape.rowMajor_val_one, Shape.rowMajor_val_three]
    show 2000 * t.val + n.val = (t.val * 1 + 0) * 2000 + n.val
    omega)

/-- A bias vector reshaped to a row `[1, J]`, at `(0, k)`: the vector at `k`. -/
theorem row_reshape_apply {J : Nat} (x : (⟨1, ![J]⟩ : Shape).Idx → EReal)
    (h : (⟨1, ![J]⟩ : Shape).ShapeCasts ⟨2, ![1, J]⟩) (k : Fin J) :
    shapeCast ⟨2, ![1, J]⟩ x h (ix2 0 k) = x (ix1 k) :=
  shapeCast_apply x h (ix2 0 k) (ix1 k) (by
    rw [Shape.rowMajor_val_one, Shape.rowMajor_val_two]
    show k.val = 0 * J + k.val
    omega)

theorem V_w0 (c : Dev nD) : (V m c main_v1 : S512x1024.Idx → EReal) = m ((c : Thread nD τ).loc main_arg3) := by
  show StableHlo.after hostOps0 (fun b => m (c, b)) (Proc.devRef .tc main_v1) = _
  after_results
  rfl
theorem V_w1 (c : Dev nD) : (V m c main_v2 : S1024x1024.Idx → EReal) = m ((c : Thread nD τ).loc main_arg5) := by
  show StableHlo.after hostOps0 (fun b => m (c, b)) (Proc.devRef .tc main_v2) = _
  after_results
  rfl
theorem V_w2 (c : Dev nD) : (V m c main_v3 : S1024x512.Idx → EReal) = m ((c : Thread nD τ).loc main_arg7) := by
  show StableHlo.after hostOps0 (fun b => m (c, b)) (Proc.devRef .tc main_v3) = _
  after_results
  rfl
theorem V_b0 (c : Dev nD) : (V m c main_v4 : S1x1024.Idx → EReal)
    = shapeCast S1x1024 (m ((c : Thread nD τ).loc main_arg4)) shapeCasts_S1024_S1x1024 := by
  show StableHlo.after hostOps0 (fun b => m (c, b)) (Proc.devRef .tc main_v4) = _
  after_results
  rfl
theorem V_b1 (c : Dev nD) : (V m c main_v5 : S1x1024.Idx → EReal)
    = shapeCast S1x1024 (m ((c : Thread nD τ).loc main_arg6)) shapeCasts_S1024_S1x1024 := by
  show StableHlo.after hostOps0 (fun b => m (c, b)) (Proc.devRef .tc main_v5) = _
  after_results
  rfl
theorem V_b2 (c : Dev nD) : (V m c main_v6 : S1x512.Idx → EReal)
    = shapeCast S1x512 (m ((c : Thread nD τ).loc main_arg8)) shapeCasts_S512_S1x512 := by
  show StableHlo.after hostOps0 (fun b => m (c, b)) (Proc.devRef .tc main_v6) = _
  after_results
  rfl

/-! ## The blocks a point reads and the block it writes -/

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the 50 points: the features, the graph words and the output move with the point along
    axis 0; every other window stays at block 0. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 3) = t.val ∧ win0_8.index t (1 : Fin 3) = 0 ∧ win0_8.index t (2 : Fin 3) = 0 :=
  (by decide +kernel : ∀ t : Fin grid0.N, _)

/-- Point `t` as a tile number. -/
abbrev tile (t : Fin cfg0.N) : Fin 50 := t.cast N_0

/-- The features' block at point `t`: rows `2000 t + n`. -/
theorem read_x (c : Dev nD) (t : Fin cfg0.N) (n : Fin 2000) (i : Fin 512) :
    iblk m c 0 t (ix2 n i) = m ((c : Thread nD τ).loc main_arg0) (ix2 (node (tile t) n) i) := by
  show V m c main_arg0 (((cfg0.win 0).blk t).view.emb (ix2 n i)) = _
  rw [V_main_arg0]
  refine congrArg _ (funext fun a => Fin.ext ?_)
  obtain ⟨e0, e1, -⟩ := idx_facts t
  match a with
  | ⟨0, _⟩ => show win0_0.index t (0 : Fin 2) * 2000 + 1 * n.val = 2000 * t.val + n.val; omega
  | ⟨1, _⟩ => show win0_0.index t (1 : Fin 2) * 512 + 1 * i.val = i.val; omega

/-- The graph words' block at point `t`: the words of nodes `2000 t + n`. -/
theorem read_ids (c : Dev nD) (t : Fin cfg0.N) (n : Fin 2000) :
    iblk m c 1 t (ix3 0 0 n) = m ((c : Thread nD τ).loc main_arg2) (ix1 (node (tile t) n)) := by
  show (V m c main_v0 : S50x1x2000.Idx → BitVec 32) (((cfg0.win 1).blk t).view.emb (ix3 0 0 n)) = _
  rw [← V_ids m c (tile t) n]
  refine congrArg _ (funext fun a => Fin.ext ?_)
  obtain ⟨-, -, e0, e1, e2, -⟩ := idx_facts t
  match a with
  | ⟨0, _⟩ => show win0_1.index t (0 : Fin 3) * 1 + 1 * 0 = t.val; omega
  | ⟨1, _⟩ => show win0_1.index t (1 : Fin 3) * 1 + 1 * 0 = 0; omega
  | ⟨2, _⟩ => show win0_1.index t (2 : Fin 3) * 2000 + 1 * n.val = n.val; omega

/-- The first layer's weights at every point: the whole array. -/
theorem read_w0 (c : Dev nD) (t : Fin cfg0.N) (i : Fin 512) (k : Fin 1024) :
    iblk m c 2 t (ix2 i k) = m ((c : Thread nD τ).loc main_arg3) (ix2 i k) := by
  show (V m c main_v1 : S512x1024.Idx → EReal) (((cfg0.win 2).blk t).view.emb (ix2 i k)) = _
  rw [V_w0]
  refine congrArg _ (funext fun a => Fin.ext ?_)
  obtain ⟨-, -, -, -, -, e0, e1, -⟩ := idx_facts t
  match a with
  | ⟨0, _⟩ => show win0_2.index t (0 : Fin 2) * 512 + 1 * i.val = i.val; omega
  | ⟨1, _⟩ => show win0_2.index t (1 : Fin 2) * 1024 + 1 * k.val = k.val; omega

/-- The first layer's bias row at every point. -/
theorem read_b0 (c : Dev nD) (t : Fin cfg0.N) (k : Fin 1024) :
    iblk m c 3 t (ix2 0 k) = m ((c : Thread nD τ).loc main_arg4) (ix1 k) := by
  show (V m c main_v4 : S1x1024.Idx → EReal) (((cfg0.win 3).blk t).view.emb (ix2 0 k)) = _
  rw [V_b0, ← row_reshape_apply (m ((c : Thread nD τ).loc main_arg4)) shapeCasts_S1024_S1x1024 k]
  refine congrArg _ (funext fun a => Fin.ext ?_)
  obtain ⟨-, -, -, -, -, -, -, e0, e1, -⟩ := idx_facts t
  match a with
  | ⟨0, _⟩ => show win0_3.index t (0 : Fin 2) * 1 + 1 * 0 = 0; omega
  | ⟨1, _⟩ => show win0_3.index t (1 : Fin 2) * 1024 + 1 * k.val = k.val; omega

/-- The second layer's weights at every point. -/
theorem read_w1 (c : Dev nD) (t : Fin cfg0.N) (i : Fin 1024) (k : Fin 1024) :
    iblk m c 4 t (ix2 i k) = m ((c : Thread nD τ).loc main_arg5) (ix2 i k) := by
  show (V m c main_v2 : S1024x1024.Idx → EReal) (((cfg0.win 4).blk t).view.emb (ix2 i k)) = _
  rw [V_w1]
  refine congrArg _ (funext fun a => Fin.ext ?_)
  obtain ⟨-, -, -, -, -, -, -, -, -, e0, e1, -⟩ := idx_facts t
  match a with
  | ⟨0, _⟩ => show win0_4.index t (0 : Fin 2) * 1024 + 1 * i.val = i.val; omega
  | ⟨1, _⟩ => show win0_4.index t (1 : Fin 2) * 1024 + 1 * k.val = k.val; omega

/-- The second layer's bias row at every point. -/
theorem read_b1 (c : Dev nD) (t : Fin cfg0.N) (k : Fin 1024) :
    iblk m c 5 t (ix2 0 k) = m ((c : Thread nD τ).loc main_arg6) (ix1 k) := by
  show (V m c main_v5 : S1x1024.Idx → EReal) (((cfg0.win 5).blk t).view.emb (ix2 0 k)) = _
  rw [V_b1, ← row_reshape_apply (m ((c : Thread nD τ).loc main_arg6)) shapeCasts_S1024_S1x1024 k]
  refine congrArg _ (funext fun a => Fin.ext ?_)
  obtain ⟨-, -, -, -, -, -, -, -, -, -, -, e0, e1, -⟩ := idx_facts t
  match a with
  | ⟨0, _⟩ => show win0_5.index t (0 : Fin 2) * 1 + 1 * 0 = 0; omega
  | ⟨1, _⟩ => show win0_5.index t (1 : Fin 2) * 1024 + 1 * k.val = k.val; omega

/-- The third layer's weights at every point. -/
theorem read_w2 (c : Dev nD) (t : Fin cfg0.N) (i : Fin 1024) (k : Fin 512) :
    iblk m c 6 t (ix2 i k) = m ((c : Thread nD τ).loc main_arg7) (ix2 i k) := by
  show (V m c main_v3 : S1024x512.Idx → EReal) (((cfg0.win 6).blk t).view.emb (ix2 i k)) = _
  rw [V_w2]
  refine congrArg _ (funext fun a => Fin.ext ?_)
  obtain ⟨-, -, -, -, -, -, -, -, -, -, -, -, -, e0, e1, -⟩ := idx_facts t
  match a with
  | ⟨0, _⟩ => show win0_6.index t (0 : Fin 2) * 1024 + 1 * i.val = i.val; omega
  | ⟨1, _⟩ => show win0_6.index t (1 : Fin 2) * 512 + 1 * k.val = k.val; omega

/-- The third layer's bias row at every point. -/
theorem read_b2 (c : Dev nD) (t : Fin cfg0.N) (k : Fin 512) :
    iblk m c 7 t (ix2 0 k) = m ((c : Thread nD τ).loc main_arg8) (ix1 k) := by
  show (V m c main_v6 : S1x512.Idx → EReal) (((cfg0.win 7).blk t).view.emb (ix2 0 k)) = _
  rw [V_b2, ← row_reshape_apply (m ((c : Thread nD τ).loc main_arg8)) shapeCasts_S512_S1x512 k]
  refine congrArg _ (funext fun a => Fin.ext ?_)
  obtain ⟨-, -, -, -, -, -, -, -, -, -, -, -, -, -, -, e0, e1, -⟩ := idx_facts t
  match a with
  | ⟨0, _⟩ => show win0_7.index t (0 : Fin 2) * 1 + 1 * 0 = 0; omega
  | ⟨1, _⟩ => show win0_7.index t (1 : Fin 2) * 512 + 1 * k.val = k.val; omega

/-! ## The output array after the region -/

/-- What the pallas_call's output `[50, 128, 512]` ends holding: at `(t, g, c)` tile `t`'s partial pooled sum. -/
def partials (c : Dev nD) : S50x128x512.Idx → EReal := fun i =>
  tilePool (m ((c : Thread nD τ).loc main_arg0)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg2)) (i 0) (i 1) (i 2)

/-- WHAT POINT `t` WRITES BACK is block `t` of `partials`. -/
theorem flushed8_eq (c : Dev nD) (t : Fin cfg0.N) :
    (dats m 0 c).flushed 8 t = ((cfg0.win 8).blk t).view.read (Elt Ideal) (partials m c) := by
  show (cfg0.win 8).cut (grid0.coords t) ((dats m 0 c).after 8 t) = _
  rw [after0_8]
  unfold out0_8
  rw [View.canon_unit_zero hz3]
  simp only [View.ld_unit_zero (S := S2000x512) hz2, View.ld_unit_zero (S := S512x1024) hz2,
    View.ld_unit_zero (S := S1x1024) hz2, View.ld_unit_zero (S := S1024x1024) hz2, View.ld_unit_zero (S := S1024x512) hz2,
    View.ld_unit_zero (S := S1x512) hz2, View.ld_unit_zero (S := S1x1x2000) hz3]
  funext y
  obtain ⟨y0, g, cc, rfl⟩ : ∃ (y0 : Fin 1) (g : Fin 128) (cc : Fin 512), y = ix3 y0 g cc := ⟨y 0, y 1, y 2, eq_ix3 y⟩
  obtain rfl : y0 = 0 := Subsingleton.elim _ _
  have hemb : ((cfg0.win 8).blk t).view.emb (ix3 0 g cc) = ix3 (tile t) g cc := funext fun a => Fin.ext (by
    obtain ⟨-, -, -, -, -, -, -, -, -, -, -, -, -, -, -, -, -, e0, e1, e2⟩ := idx_facts t
    match a with
    | ⟨0, _⟩ => show win0_8.index t (0 : Fin 3) * 1 + 1 * 0 = t.val; omega
    | ⟨1, _⟩ => show win0_8.index t (1 : Fin 3) * 128 + 1 * g.val = g.val; omega
    | ⟨2, _⟩ => show win0_8.index t (2 : Fin 3) * 512 + 1 * cc.val = cc.val; omega)
  show k0_pay1 (F := Ideal) (k0_pay2 (F := Ideal) (iblk m c 0 t) (iblk m c 2 t) (iblk m c 3 t) (iblk m c 4 t) (iblk m c 5 t)
        (iblk m c 6 t) (iblk m c 7 t)) (iota .tc S128x2000 32 [0] iota_S128x2000_d0_w32) (k0_pay3 (F := Ideal) (iblk m c 1 t))
      (ix3 0 g cc) = partials m c (((cfg0.win 8).blk t).view.emb (ix3 0 g cc))
  rw [hemb]
  refine (block_apply (iblk m c 0 t) (iblk m c 1 t) (iblk m c 2 t) (iblk m c 3 t) (iblk m c 4 t) (iblk m c 5 t)
    (iblk m c 6 t) (iblk m c 7 t) g cc).trans ?_
  show _ = tilePool _ _ _ _ _ _ _ _ (tile t) g cc
  unfold tilePool nodeFeat
  refine Finset.sum_congr rfl fun n _ => ?_
  simp only [read_x m c t, read_ids m c t, read_w0 m c t, read_b0 m c t, read_w1 m c t, read_b1 m c t, read_w2 m c t,
    read_b2 m c t]

/-- An index of the output array is in point `t`'s block iff each coordinate is in the block's range on its axis. -/
theorem mem_blk8 (t : Fin cfg0.N) (i : S50x128x512.Idx) :
    i ∈ ((cfg0.win 8).blk t).view.set ↔ ∀ a : Fin 3, win0_8.index t a * S1x128x512.size a ≤ (i a).val
      ∧ (i a).val < win0_8.index t a * S1x128x512.size a + S1x128x512.size a := by
  show i ∈ ((View.whole main_v7).slice (win0_8.rect t)).set ↔ _
  rw [View.set_slice_whole, Rect.mem_set_unit]
  exact Iff.rfl

/-- The 50 blocks tile the output array: index `(t, g, c)` lies in point `t`'s block. -/
theorem cover8 (i : S50x128x512.Idx) :
    ∃ t : Fin cfg0.N, (cfg0.win 8).flush t = true ∧ i ∈ ((cfg0.win 8).blk t).view.set := by
  have h0 : (i 0).val < 50 := (i 0).isLt
  have h1 : (i 1).val < 128 := (i 1).isLt
  have h2 : (i 2).val < 512 := (i 2).isLt
  refine ⟨⟨(i 0).val, by rw [show cfg0.N = 50 from N_0]; exact h0⟩, flush0_8 _, ?_⟩
  rw [mem_blk8]
  obtain ⟨-, -, -, -, -, -, -, -, -, -, -, -, -, -, -, -, -, e0, e1, e2⟩ :=
    idx_facts ⟨(i 0).val, by rw [show cfg0.N = 50 from N_0]; exact h0⟩
  intro a
  match a with
  | ⟨0, _⟩ =>
    show win0_8.index _ (0 : Fin 3) * 1 ≤ (i 0).val ∧ (i 0).val < win0_8.index _ (0 : Fin 3) * 1 + 1
    rw [e0]
    show (i 0).val * 1 ≤ (i 0).val ∧ (i 0).val < (i 0).val * 1 + 1
    omega
  | ⟨1, _⟩ =>
    show win0_8.index _ (1 : Fin 3) * 128 ≤ (i 1).val ∧ (i 1).val < win0_8.index _ (1 : Fin 3) * 128 + 128
    rw [e1]; omega
  | ⟨2, _⟩ =>
    show win0_8.index _ (2 : Fin 3) * 512 ≤ (i 2).val ∧ (i 2).val < win0_8.index _ (2 : Fin 3) * 512 + 512
    rw [e2]; omega

/-- THE OUTPUT ARRAY after the region: `partials`. -/
theorem final8 (c : Dev nD) : (dats m 0 c).arrAt 8 cfg0.N = partials m c :=
  (dats m 0 c).arrAt_eq_of_cover 8 (partials m c) (fun t _ => flushed8_eq m c t) cover8

/-! ## The host lines after the region -/

/-- The per-graph counts, broadcast along the features, as the host lines after the call compute them from the graph
    words (the reference computes the same term). -/
def counts (ids : (⟨S100000, .i32⟩ : BufTy).Contents (Elt Ideal)) : (⟨S128x512, .f32⟩ : BufTy).Contents (Elt Ideal) :=
  broadcastInDim S128x512 ![0, 1] bcast_S128x1_S128x512_0_1 (broadcastInDim S128x1 ![0] bcast_S128_S128x1_0
    (Host.scatterAdd scatter_S128_S100000x1_S100000_n_0_0_1
      (broadcastInDim S128 ![] bcast_S_S128 (constant (F := Ideal) S_ .f32 0x00000000#32))
      (broadcastInDim S100000x1 ![0] bcast_S100000_S100000x1_0 ids)
      (broadcastInDim S100000 ![] bcast_S_S100000 (constant (F := Ideal) S_ .f32 0x3F800000#32))))

/-- THE KERNEL'S RESULT: the partial sums added over the 50 tiles, divided by the counts. -/
def result (c : Dev nD) : (⟨S128x512, .f32⟩ : BufTy).Contents (Elt Ideal) :=
  Host.divf (Host.reduceAdd (partials m c) (constant (F := Ideal) S_ .f32 0x00000000#32) reducesTo_S50x128x512_S128x512_d0 h_S_)
    (counts (m ((c : Thread nD τ).loc main_arg2)))

/-- What the lines after the region leave in @main's result, from the region's output array and the graph words. -/
theorem tail_eq (c : Dev nD) :
    Pipeline.afterTail₀ cfgs (dats m) 0 (V0 m) [hostOps1] c main_v15 = result m c := by
  unfold Pipeline.afterTail₀
  show StableHlo.after hostOps1 _ (Proc.devRef .tc main_v15) = _
  after_results
  have e7 : Pipeline.withArrays (cfgs 0).spec c (V0 m c) (fun w => (dats m 0 c).arrAt w (cfgs 0).N)
      (Proc.tc.devRef main_v7) = partials m c :=
    (Pipeline.withArrays_arr spec0 launch0.win.arr_inj c _ _ 8).trans (final8 m c)
  have e2 : Pipeline.withArrays (cfgs 0).spec c (V0 m c) (fun w => (dats m 0 c).arrAt w (cfgs 0).N)
      (Proc.tc.devRef main_arg2) = m ((c : Thread nD τ).loc main_arg2) :=
    (Pipeline.withArrays_of_ne spec0 c (V0 m c) _ main_arg2
      (by exact (by decide : ∀ w, Pipeline.arrRef spec0 w ≠ main_arg2))).trans (V_main_arg2 m c)
  rw [e7, e2]
  rfl

/-- THE RUN, READ: every weakly fair execution of the kernel's program ends with @main's result at `result` and the
    argument arrays unchanged. -/
theorem run : θ_run defs (onTc (τ := τ) (main (F := Ideal))) ⟨m, fun _ => 0, ρ⟩ (fun r => ∀ c : Dev nD,
      r.2.mem ((c.tc : Thread nD τ).loc main_v15) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_v15 (Pipeline.mem_restRefs_of main_v15 (by decide) (by decide))).trans (tail_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c))⟩)
    (run_main m ρ)

end Cert.KernelIdeal.KValue

end
-- ==== Proof.LibScatterRows.lean ====
/-
  The host's accumulating float scatter, read row-wise, on the extended reals.

  The accumulating scatter adds, to every operand element, the exact sum of the update elements whose result index
  is that element. For the row pattern — operand `[N, C]` (or `[N, A, B]`), one signed scatter index per update row
  held in a column `[M, 1]`, updates `[M, C]` (or `[M, A, B]`), the updates' trailing axes the window, the operand's
  leading axis inserted and the one scattered to — update element `(m, c)` lands on operand element `(n, c)` exactly
  when the index word of row `m`, read signed, is `n`; an index outside `[0, N)` lands nowhere. So the scatter at
  `(n, c)` is the operand there plus the sum of `upd (m, c)` over the rows `m` whose index is `n`.

  Addition on the extended reals is commutative and associative with no finiteness condition, and a sum over
  `M₁ + M₂` rows filtered by a predicate splits over the first `M₁` and the last `M₂` rows; hence scattering two
  stacked blocks of updates at two stacked index columns is scattering the first block and then the second.
-/
import Idealize.ShloMosaic.PureOps.Ideal
import Idealize.ShloMosaic.Lib.ValueIdx
import Idealize.ShloMosaic.Lib.Pipeline.Value
import Mathlib.Algebra.BigOperators.Fin

noncomputable section

open scoped BigOperators

namespace Cert.Lib

open Idealize.ShloMosaic Idealize.ShloMosaic.ValueIdx

/-- An element of a one-element list, whatever the position's proof: the element. -/
theorem getElem_singleton_any {α : Type} (a : α) (k : Nat) (h : k < [a].length) : [a][k] = a := by
  have : k = 0 := by simpa using h
  subst this; rfl

/-! ## Rank 2: operand `[N, C]`, indices `[M, 1]`, updates `[M, C]` -/

/-- The row pattern's dimension numbers at rank 2: `update_window_dims = [1]`, `inserted_window_dims = [0]`,
    `scatter_dims_to_operand_dims = [0]`, `index_vector_dim = 1`. At a printed record every field is `rfl`:
    `⟨rfl, rfl, rfl, rfl⟩`. -/
structure RowScatter2 {N M C : Nat} (d : ScatterDims ⟨2, ![N, C]⟩ ⟨2, ![M, 1]⟩ ⟨2, ![M, C]⟩) : Prop where
  uw : d.updateWindowDims = [1]
  iw : d.insertedWindowDims = [0]
  sd : d.scatterDimsToOperandDims = [0]
  iv : d.indexVectorDim = 1

/-- Where an update element lands, in the row pattern at rank 2: update `(m, c)` lands on operand `(n, c')` exactly when
    row `m`'s index word, read signed, is `n`, and `c = c'`. An index word that is negative or at least `N` equals no
    `n : Fin N`: that update is dropped. -/
theorem resultIdx?_rows2 {N M C w : Nat} (d : ScatterDims ⟨2, ![N, C]⟩ ⟨2, ![M, 1]⟩ ⟨2, ![M, C]⟩)
    (hd : RowScatter2 d) (m : Fin M) (c : Fin C) (idx : IVec ⟨2, ![M, 1]⟩ w) (n : Fin N) (c' : Fin C) :
    d.resultIdx? (ix2 m c) idx = some (ix2 n c') ↔ (idx (ix2 m 0)).toInt = (n.val : Int) ∧ c = c' := by
  obtain ⟨hu, hi, hs, hv⟩ := hd
  obtain ⟨uw, iw, sd, iv, wf⟩ := d
  simp only at hu hi hs hv
  subst hu hi hs hv
  have hsi : ∀ (j : (⟨2, ![M, C]⟩ : Shape).Idx) (k : Fin 1), ScatterDims.siIdx (s := ⟨2, ![N, C]⟩) ⟨[1], [0], [0], 1, wf⟩ j k = ix2 (j 0) 0 := by
    intro j k
    funext b
    match b with
    | ⟨0, _⟩ =>
      unfold ScatterDims.siIdx ScatterDims.siCoord
      rw [dif_neg (by simp)]
      apply Fin.ext
      show (j (([0] : List (Fin 2))[_]'_)).val = (j 0).val
      exact congrArg (fun a => (j a).val) (getElem_singleton_any _ _ _)
    | ⟨1, _⟩ => exact Subsingleton.elim (α := Fin 1) _ _
  have hst0 : ∀ j : (⟨2, ![M, C]⟩ : Shape).Idx, ScatterDims.start (s := ⟨2, ![N, C]⟩) ⟨[1], [0], [0], 1, wf⟩ j idx 0 = (idx (ix2 (j 0) 0)).toInt := by
    intro j
    unfold ScatterDims.start
    rw [dif_pos (List.mem_singleton.2 rfl)]
    exact congrArg (fun t => (idx t).toInt) (hsi j _)
  have hst1 : ∀ j : (⟨2, ![M, C]⟩ : Shape).Idx, ScatterDims.start (s := ⟨2, ![N, C]⟩) ⟨[1], [0], [0], 1, wf⟩ j idx 1 = 0 := by
    intro j
    unfold ScatterDims.start
    rw [dif_neg (by simp)]
  have hw0 : ∀ j : (⟨2, ![M, C]⟩ : Shape).Idx, ScatterDims.window (s := ⟨2, ![N, C]⟩) (si := ⟨2, ![M, 1]⟩) ⟨[1], [0], [0], 1, wf⟩ j 0 = 0 := by
    intro j
    have h0 : (0 : Fin 2) ∉ ScatterDims.sKept (s := ⟨2, ![N, C]⟩) (si := ⟨2, ![M, 1]⟩) (u := ⟨2, ![M, C]⟩) ⟨[1], [0], [0], 1, wf⟩ := by
      show (0 : Fin 2) ∉ ([1] : List (Fin 2)); simp
    unfold ScatterDims.window
    rw [dif_neg h0]
  have hw1 : ∀ j : (⟨2, ![M, C]⟩ : Shape).Idx, ScatterDims.window (s := ⟨2, ![N, C]⟩) (si := ⟨2, ![M, 1]⟩) ⟨[1], [0], [0], 1, wf⟩ j 1 = (j 1).val := by
    intro j
    have h1 : (1 : Fin 2) ∈ ScatterDims.sKept (s := ⟨2, ![N, C]⟩) (si := ⟨2, ![M, 1]⟩) (u := ⟨2, ![M, C]⟩) ⟨[1], [0], [0], 1, wf⟩ := by
      show (1 : Fin 2) ∈ ([1] : List (Fin 2)); simp
    unfold ScatterDims.window
    rw [dif_pos h1]
    exact congrArg (fun a => (j a).val) (getElem_singleton_any _ _ _)
  constructor
  · intro h
    unfold ScatterDims.resultIdx? at h
    split at h
    · next hc =>
      have hf := Option.some.inj h
      have e0 := congrArg Fin.val (congrFun hf 0)
      have e1 := congrArg Fin.val (congrFun hf 1)
      have c0 := hc 0
      simp only [hst0, hw0] at e0 c0
      simp only [hst1, hw1] at e1
      change ((idx (ix2 m 0)).toInt + ((0 : Nat) : Int)).toNat = n.val at e0
      change 0 ≤ (idx (ix2 m 0)).toInt + ((0 : Nat) : Int) ∧ _ at c0
      change (0 + ((c.val : Nat) : Int)).toNat = c'.val at e1
      refine ⟨by omega, Fin.ext (by omega)⟩
    · exact absurd h (by simp)
  · rintro ⟨hT, rfl⟩
    have hcond : ∀ a : Fin 2, 0 ≤ ScatterDims.start (s := ⟨2, ![N, C]⟩) ⟨[1], [0], [0], 1, wf⟩ (ix2 m c) idx a
          + (ScatterDims.window (s := ⟨2, ![N, C]⟩) (si := ⟨2, ![M, 1]⟩) ⟨[1], [0], [0], 1, wf⟩ (ix2 m c) a : Int) ∧
        ScatterDims.start (s := ⟨2, ![N, C]⟩) ⟨[1], [0], [0], 1, wf⟩ (ix2 m c) idx a
          + (ScatterDims.window (s := ⟨2, ![N, C]⟩) (si := ⟨2, ![M, 1]⟩) ⟨[1], [0], [0], 1, wf⟩ (ix2 m c) a : Int)
          < ((⟨2, ![N, C]⟩ : Shape).size a : Int) := by
      intro a
      match a with
      | ⟨0, _⟩ =>
        rw [show (⟨0, by omega⟩ : Fin 2) = 0 from rfl, hst0, hw0]
        change 0 ≤ (idx (ix2 m 0)).toInt + ((0 : Nat) : Int) ∧ (idx (ix2 m 0)).toInt + ((0 : Nat) : Int) < (N : Int)
        have := n.isLt
        omega
      | ⟨1, _⟩ =>
        rw [show (⟨1, by omega⟩ : Fin 2) = 1 from rfl, hst1, hw1]
        change 0 ≤ 0 + ((c.val : Nat) : Int) ∧ 0 + ((c.val : Nat) : Int) < (C : Int)
        have := c.isLt
        omega
    unfold ScatterDims.resultIdx?
    rw [dif_pos hcond]
    congr 1
    funext a
    apply Fin.ext
    match a with
    | ⟨0, _⟩ =>
      show (ScatterDims.start (s := ⟨2, ![N, C]⟩) ⟨[1], [0], [0], 1, wf⟩ (ix2 m c) idx 0
          + (ScatterDims.window (s := ⟨2, ![N, C]⟩) (si := ⟨2, ![M, 1]⟩) ⟨[1], [0], [0], 1, wf⟩ (ix2 m c) 0 : Int)).toNat = n.val
      rw [hst0, hw0]
      change ((idx (ix2 m 0)).toInt + ((0 : Nat) : Int)).toNat = n.val
      omega
    | ⟨1, _⟩ =>
      show (ScatterDims.start (s := ⟨2, ![N, C]⟩) ⟨[1], [0], [0], 1, wf⟩ (ix2 m c) idx 1
          + (ScatterDims.window (s := ⟨2, ![N, C]⟩) (si := ⟨2, ![M, 1]⟩) ⟨[1], [0], [0], 1, wf⟩ (ix2 m c) 1 : Int)).toNat = c.val
      rw [hst1, hw1]
      change (0 + ((c.val : Nat) : Int)).toNat = c.val
      omega

/-- THE ROW FORM at rank 2: the accumulating scatter at operand element `(n, c)` is the operand there plus the sum of
    `upd (m, c)` over the update rows `m` whose index word `idx (m, 0)`, read signed, is `n`. -/
theorem hostScatterAdd_rows2 {N M C w : Nat} (d : ScatterDims ⟨2, ![N, C]⟩ ⟨2, ![M, 1]⟩ ⟨2, ![M, C]⟩)
    (hd : RowScatter2 d) (x : (⟨2, ![N, C]⟩ : Shape).Idx → EReal) (idx : IVec ⟨2, ![M, 1]⟩ w)
    (upd : (⟨2, ![M, C]⟩ : Shape).Idx → EReal) (n : Fin N) (c : Fin C) :
    Ideal.hostScatterAdd d x idx upd (ix2 n c)
      = x (ix2 n c) + ∑ m ∈ Finset.univ.filter (fun m : Fin M => (idx (ix2 m 0)).toInt = (n.val : Int)), upd (ix2 m c) := by
  unfold Ideal.hostScatterAdd
  congr 1
  symm
  refine Finset.sum_bij (fun m _ => ix2 m c) ?_ ?_ ?_ ?_
  · intro m hm
    simp only [Finset.mem_filter, Finset.mem_univ, true_and] at hm ⊢
    exact (resultIdx?_rows2 d hd m c idx n c).2 ⟨hm, rfl⟩
  · intro m₁ _ m₂ _ h
    exact congrFun h 0
  · intro j hj
    obtain ⟨a, b, rfl⟩ : ∃ a b, j = ix2 a b := ⟨j 0, j 1, eq_ix2 j⟩
    simp only [Finset.mem_filter, Finset.mem_univ, true_and] at hj
    obtain ⟨hT, hc⟩ := (resultIdx?_rows2 d hd a b idx n c).1 hj
    subst hc
    exact ⟨a, by simp only [Finset.mem_filter, Finset.mem_univ, true_and]; exact hT, rfl⟩
  · intro m _; rfl

/-- The row form stated on the printed operation: at the extended reals `Host.scatterAdd d x idx upd` is
    `Ideal.hostScatterAdd d x idx upd` (by definition), so it reads row-wise as above. -/
theorem scatterAdd_rows2 {N M C w : Nat} {φ : FTy} (d : ScatterDims ⟨2, ![N, C]⟩ ⟨2, ![M, 1]⟩ ⟨2, ![M, C]⟩)
    (hd : RowScatter2 d) (x : FVec Ideal ⟨2, ![N, C]⟩ φ) (idx : IVec ⟨2, ![M, 1]⟩ w)
    (upd : FVec Ideal ⟨2, ![M, C]⟩ φ) (n : Fin N) (c : Fin C) :
    Host.scatterAdd d x idx upd (ix2 n c)
      = x (ix2 n c) + ∑ m ∈ Finset.univ.filter (fun m : Fin M => (idx (ix2 m 0)).toInt = (n.val : Int)), upd (ix2 m c) :=
  hostScatterAdd_rows2 d hd x idx upd n c

/-- A sum over `Fin (M₁ + M₂)` filtered by a predicate splits over the first `M₁` and the last `M₂` positions. -/
theorem sum_filter_fin_add {α : Type*} [AddCommMonoid α] {M₁ M₂ : Nat} (q : Fin (M₁ + M₂) → Prop) [DecidablePred q]
    (f : Fin (M₁ + M₂) → α) :
    ∑ m ∈ Finset.univ.filter q, f m
      = ∑ m ∈ Finset.univ.filter (fun m : Fin M₁ => q (Fin.castAdd M₂ m)), f (Fin.castAdd M₂ m)
        + ∑ m ∈ Finset.univ.filter (fun m : Fin M₂ => q (Fin.natAdd M₁ m)), f (Fin.natAdd M₁ m) := by
  rw [Finset.sum_filter, Finset.sum_filter, Finset.sum_filter, Fin.sum_univ_add]

/-- Row `m` of the first `M₁` rows is below `M = M₁ + M₂`. -/
theorem lt_of_left {M M₁ M₂ : Nat} (hM : M = M₁ + M₂) (m : Fin M₁) : m.val < M := by have := m.isLt; omega
/-- Row `M₁ + m`, `m` among the last `M₂` rows, is below `M = M₁ + M₂`. -/
theorem lt_of_right {M M₁ M₂ : Nat} (hM : M = M₁ + M₂) (m : Fin M₂) : M₁ + m.val < M := by have := m.isLt; omega

/-- THE ROW FORM OVER TWO STACKED BLOCKS: with `M = M₁ + M₂` update rows, the accumulating scatter at `(n, c)` is the
    operand there plus the sum over the rows `m < M₁` whose index is `n` plus the sum over the rows `M₁ + m`, `m < M₂`,
    whose index is `n`. -/
theorem hostScatterAdd_rows2_halves {N M M₁ M₂ C w : Nat} (hM : M = M₁ + M₂)
    (d : ScatterDims ⟨2, ![N, C]⟩ ⟨2, ![M, 1]⟩ ⟨2, ![M, C]⟩) (hd : RowScatter2 d)
    (x : (⟨2, ![N, C]⟩ : Shape).Idx → EReal) (idx : IVec ⟨2, ![M, 1]⟩ w)
    (upd : (⟨2, ![M, C]⟩ : Shape).Idx → EReal) (n : Fin N) (c : Fin C) :
    Ideal.hostScatterAdd d x idx upd (ix2 n c)
      = x (ix2 n c)
        + ∑ m ∈ Finset.univ.filter (fun m : Fin M₁ => (idx (ix2 ⟨m.val, lt_of_left hM m⟩ 0)).toInt = (n.val : Int)),
            upd (ix2 ⟨m.val, lt_of_left hM m⟩ c)
        + ∑ m ∈ Finset.univ.filter (fun m : Fin M₂ => (idx (ix2 ⟨M₁ + m.val, lt_of_right hM m⟩ 0)).toInt = (n.val : Int)),
            upd (ix2 ⟨M₁ + m.val, lt_of_right hM m⟩ c) := by
  subst hM
  rw [hostScatterAdd_rows2 d hd, add_assoc]
  congr 1
  exact sum_filter_fin_add (fun m : Fin (M₁ + M₂) => (idx (ix2 m 0)).toInt = (n.val : Int)) (fun m => upd (ix2 m c))

/-- THE MERGE LAW at rank 2: if the index column `idx : [M, 1]` reads (signed) as `i₁` on its first `M₁` rows and as
    `i₂` on its last `M₂`, and the updates `upd : [M, C]` are `u₁` on the first `M₁` rows and `u₂` on the last `M₂`
    (`M = M₁ + M₂`), then scattering `upd` at `idx` into `x` is scattering `u₁` at `i₁` into `x` and then `u₂` at `i₂`
    into the result. No finiteness: the extended reals' addition is commutative and associative. The index words'
    widths may differ. -/
theorem hostScatterAdd_rows2_merge {N M M₁ M₂ C w w₁ w₂ : Nat} (hM : M = M₁ + M₂)
    (d : ScatterDims ⟨2, ![N, C]⟩ ⟨2, ![M, 1]⟩ ⟨2, ![M, C]⟩) (hd : RowScatter2 d)
    (d₁ : ScatterDims ⟨2, ![N, C]⟩ ⟨2, ![M₁, 1]⟩ ⟨2, ![M₁, C]⟩) (hd₁ : RowScatter2 d₁)
    (d₂ : ScatterDims ⟨2, ![N, C]⟩ ⟨2, ![M₂, 1]⟩ ⟨2, ![M₂, C]⟩) (hd₂ : RowScatter2 d₂)
    (x : (⟨2, ![N, C]⟩ : Shape).Idx → EReal)
    (idx : IVec ⟨2, ![M, 1]⟩ w) (i₁ : IVec ⟨2, ![M₁, 1]⟩ w₁) (i₂ : IVec ⟨2, ![M₂, 1]⟩ w₂)
    (upd : (⟨2, ![M, C]⟩ : Shape).Idx → EReal) (u₁ : (⟨2, ![M₁, C]⟩ : Shape).Idx → EReal)
    (u₂ : (⟨2, ![M₂, C]⟩ : Shape).Idx → EReal)
    (hi₁ : ∀ m : Fin M₁, (idx (ix2 ⟨m.val, lt_of_left hM m⟩ 0)).toInt = (i₁ (ix2 m 0)).toInt)
    (hi₂ : ∀ m : Fin M₂, (idx (ix2 ⟨M₁ + m.val, lt_of_right hM m⟩ 0)).toInt = (i₂ (ix2 m 0)).toInt)
    (hu₁ : ∀ (m : Fin M₁) (c : Fin C), upd (ix2 ⟨m.val, lt_of_left hM m⟩ c) = u₁ (ix2 m c))
    (hu₂ : ∀ (m : Fin M₂) (c : Fin C), upd (ix2 ⟨M₁ + m.val, lt_of_right hM m⟩ c) = u₂ (ix2 m c)) :
    Ideal.hostScatterAdd d x idx upd = Ideal.hostScatterAdd d₂ (Ideal.hostScatterAdd d₁ x i₁ u₁) i₂ u₂ := by
  funext j
  obtain ⟨n, c, rfl⟩ : ∃ n c, j = ix2 n c := ⟨j 0, j 1, eq_ix2 j⟩
  rw [hostScatterAdd_rows2_halves hM d hd, hostScatterAdd_rows2 d₂ hd₂, hostScatterAdd_rows2 d₁ hd₁]
  congr 1
  · congr 1
    exact Finset.sum_congr (Finset.filter_congr fun m _ => by rw [hi₁]) fun m _ => hu₁ m c
  · exact Finset.sum_congr (Finset.filter_congr fun m _ => by rw [hi₂]) fun m _ => hu₂ m c

/-! ## A two-block concatenation along axis 0 read at a row -/

/-- A concatenation of `[M₁, C]` and `[M₂, C]` along axis 0, read at a row `j` of the first block (`j = m < M₁`):
    the first block at `(m, c)`. -/
theorem concatenate_rows2_left {α : Type} {M M₁ M₂ C : Nat} (x₁ : (⟨2, ![M₁, C]⟩ : Shape).Idx → α)
    (x₂ : (⟨2, ![M₂, C]⟩ : Shape).Idx → α)
    (h : Shape.Concatenates [⟨2, ![M₁, C]⟩, ⟨2, ![M₂, C]⟩] ⟨2, ![M, C]⟩ 0) (j : Fin M) (m : Fin M₁) (c : Fin C)
    (hj : j.val = m.val) :
    concatenate ⟨2, ![M, C]⟩ 0 [⟨⟨2, ![M₁, C]⟩, x₁⟩, ⟨⟨2, ![M₂, C]⟩, x₂⟩] h (ix2 j c) = x₁ (ix2 m c) := by
  refine concatenate_pair_apply_left (0 : Fin 2) x₁ x₂ h (ix2 j c) rfl (ix2 m c) fun b => ?_
  match b with
  | ⟨0, _⟩ => exact hj.symm
  | ⟨1, _⟩ => rfl

/-- A concatenation of `[M₁, C]` and `[M₂, C]` along axis 0, read at a row `j` of the second block (`j = M₁ + m`,
    `m < M₂`): the second block at `(m, c)`. -/
theorem concatenate_rows2_right {α : Type} {M M₁ M₂ C : Nat} (x₁ : (⟨2, ![M₁, C]⟩ : Shape).Idx → α)
    (x₂ : (⟨2, ![M₂, C]⟩ : Shape).Idx → α)
    (h : Shape.Concatenates [⟨2, ![M₁, C]⟩, ⟨2, ![M₂, C]⟩] ⟨2, ![M, C]⟩ 0) (j : Fin M) (m : Fin M₂) (c : Fin C)
    (hj : j.val = M₁ + m.val) :
    concatenate ⟨2, ![M, C]⟩ 0 [⟨⟨2, ![M₁, C]⟩, x₁⟩, ⟨⟨2, ![M₂, C]⟩, x₂⟩] h (ix2 j c) = x₂ (ix2 m c) := by
  refine concatenate_pair_apply_right (0 : Fin 2) x₁ x₂ h (ix2 j c) rfl rfl (ix2 m c) (fun b hb => ?_) ?_
  · match b with
    | ⟨0, _⟩ => exact absurd rfl hb
    | ⟨1, _⟩ => rfl
  · show m.val + M₁ = j.val
    omega

/-- A concatenation of two vectors `[M₁]` and `[M₂]`, read at a position `j = m < M₁`: the first at `m`. -/
theorem concatenate_rows1_left {α : Type} {M M₁ M₂ : Nat} (x₁ : (⟨1, ![M₁]⟩ : Shape).Idx → α)
    (x₂ : (⟨1, ![M₂]⟩ : Shape).Idx → α)
    (h : Shape.Concatenates [⟨1, ![M₁]⟩, ⟨1, ![M₂]⟩] ⟨1, ![M]⟩ 0) (j : Fin M) (m : Fin M₁) (hj : j.val = m.val) :
    concatenate ⟨1, ![M]⟩ 0 [⟨⟨1, ![M₁]⟩, x₁⟩, ⟨⟨1, ![M₂]⟩, x₂⟩] h (ix1 j) = x₁ (ix1 m) := by
  refine concatenate_pair_apply_left (0 : Fin 1) x₁ x₂ h (ix1 j) rfl (ix1 m) fun b => ?_
  match b with
  | ⟨0, _⟩ => exact hj.symm

/-- A concatenation of two vectors `[M₁]` and `[M₂]`, read at a position `j = M₁ + m`, `m < M₂`: the second at `m`. -/
theorem concatenate_rows1_right {α : Type} {M M₁ M₂ : Nat} (x₁ : (⟨1, ![M₁]⟩ : Shape).Idx → α)
    (x₂ : (⟨1, ![M₂]⟩ : Shape).Idx → α)
    (h : Shape.Concatenates [⟨1, ![M₁]⟩, ⟨1, ![M₂]⟩] ⟨1, ![M]⟩ 0) (j : Fin M) (m : Fin M₂)
    (hj : j.val = M₁ + m.val) :
    concatenate ⟨1, ![M]⟩ 0 [⟨⟨1, ![M₁]⟩, x₁⟩, ⟨⟨1, ![M₂]⟩, x₂⟩] h (ix1 j) = x₂ (ix1 m) := by
  refine concatenate_pair_apply_right (0 : Fin 1) x₁ x₂ h (ix1 j) rfl rfl (ix1 m) (fun b hb => ?_) ?_
  · match b with
    | ⟨0, _⟩ => exact absurd rfl hb
  · show m.val + M₁ = j.val
    omega

/-- THE MERGE LAW AGAINST THE CONCATENATION at rank 2: scattering the concatenation (along axis 0) of two update blocks
    `u₁ : [M₁, C]`, `u₂ : [M₂, C]` at the concatenation of two index columns `i₁ : [M₁, 1]`, `i₂ : [M₂, 1]` into `x` is
    scattering `u₁` at `i₁` into `x` and then `u₂` at `i₂` into the result. -/
theorem hostScatterAdd_rows2_concat {N M M₁ M₂ C w : Nat} (hM : M = M₁ + M₂)
    (d : ScatterDims ⟨2, ![N, C]⟩ ⟨2, ![M, 1]⟩ ⟨2, ![M, C]⟩) (hd : RowScatter2 d)
    (d₁ : ScatterDims ⟨2, ![N, C]⟩ ⟨2, ![M₁, 1]⟩ ⟨2, ![M₁, C]⟩) (hd₁ : RowScatter2 d₁)
    (d₂ : ScatterDims ⟨2, ![N, C]⟩ ⟨2, ![M₂, 1]⟩ ⟨2, ![M₂, C]⟩) (hd₂ : RowScatter2 d₂)
    (x : (⟨2, ![N, C]⟩ : Shape).Idx → EReal) (i₁ : IVec ⟨2, ![M₁, 1]⟩ w) (i₂ : IVec ⟨2, ![M₂, 1]⟩ w)
    (u₁ : (⟨2, ![M₁, C]⟩ : Shape).Idx → EReal) (u₂ : (⟨2, ![M₂, C]⟩ : Shape).Idx → EReal)
    (hI : Shape.Concatenates [⟨2, ![M₁, 1]⟩, ⟨2, ![M₂, 1]⟩] ⟨2, ![M, 1]⟩ 0)
    (hU : Shape.Concatenates [⟨2, ![M₁, C]⟩, ⟨2, ![M₂, C]⟩] ⟨2, ![M, C]⟩ 0) :
    Ideal.hostScatterAdd d x (concatenate ⟨2, ![M, 1]⟩ 0 [⟨⟨2, ![M₁, 1]⟩, i₁⟩, ⟨⟨2, ![M₂, 1]⟩, i₂⟩] hI)
        (concatenate ⟨2, ![M, C]⟩ 0 [⟨⟨2, ![M₁, C]⟩, u₁⟩, ⟨⟨2, ![M₂, C]⟩, u₂⟩] hU)
      = Ideal.hostScatterAdd d₂ (Ideal.hostScatterAdd d₁ x i₁ u₁) i₂ u₂ :=
  hostScatterAdd_rows2_merge hM d hd d₁ hd₁ d₂ hd₂ x _ i₁ i₂ _ u₁ u₂
    (fun m => congrArg BitVec.toInt (concatenate_rows2_left i₁ i₂ hI _ m 0 rfl))
    (fun m => congrArg BitVec.toInt (concatenate_rows2_right i₁ i₂ hI _ m 0 rfl))
    (fun m c => concatenate_rows2_left u₁ u₂ hU _ m c rfl)
    (fun m c => concatenate_rows2_right u₁ u₂ hU _ m c rfl)

/-! ## Rank 3: operand `[N, A, B]`, indices `[M, 1]`, updates `[M, A, B]` -/

/-- The row pattern's dimension numbers at rank 3: `update_window_dims = [1, 2]`, `inserted_window_dims = [0]`,
    `scatter_dims_to_operand_dims = [0]`, `index_vector_dim = 1`. At a printed record: `⟨rfl, rfl, rfl, rfl⟩`. -/
structure RowScatter3 {N M A B : Nat} (d : ScatterDims ⟨3, ![N, A, B]⟩ ⟨2, ![M, 1]⟩ ⟨3, ![M, A, B]⟩) : Prop where
  uw : d.updateWindowDims = [1, 2]
  iw : d.insertedWindowDims = [0]
  sd : d.scatterDimsToOperandDims = [0]
  iv : d.indexVectorDim = 1

/-- Where an update element lands, in the row pattern at rank 3: update `(m, a, b)` lands on operand `(n, a', b')`
    exactly when row `m`'s index word, read signed, is `n`, and `a = a'`, `b = b'`. -/
theorem resultIdx?_rows3 {N M A B w : Nat} (d : ScatterDims ⟨3, ![N, A, B]⟩ ⟨2, ![M, 1]⟩ ⟨3, ![M, A, B]⟩)
    (hd : RowScatter3 d) (m : Fin M) (a : Fin A) (b : Fin B) (idx : IVec ⟨2, ![M, 1]⟩ w) (n : Fin N) (a' : Fin A)
    (b' : Fin B) :
    d.resultIdx? (ix3 m a b) idx = some (ix3 n a' b') ↔ (idx (ix2 m 0)).toInt = (n.val : Int) ∧ a = a' ∧ b = b' := by
  obtain ⟨hu, hi, hs, hv⟩ := hd
  obtain ⟨uw, iw, sd, iv, wf⟩ := d
  simp only at hu hi hs hv
  subst hu hi hs hv
  have hsi : ∀ (j : (⟨3, ![M, A, B]⟩ : Shape).Idx) (k : Fin 1),
      ScatterDims.siIdx (s := ⟨3, ![N, A, B]⟩) ⟨[1, 2], [0], [0], 1, wf⟩ j k = ix2 (j 0) 0 := by
    intro j k
    funext q
    match q with
    | ⟨0, _⟩ =>
      unfold ScatterDims.siIdx ScatterDims.siCoord
      rw [dif_neg (by simp)]
      apply Fin.ext
      show (j (([0] : List (Fin 3))[_]'_)).val = (j 0).val
      exact congrArg (fun t => (j t).val) (getElem_singleton_any _ _ _)
    | ⟨1, _⟩ => exact Subsingleton.elim (α := Fin 1) _ _
  have hst0 : ∀ j : (⟨3, ![M, A, B]⟩ : Shape).Idx,
      ScatterDims.start (s := ⟨3, ![N, A, B]⟩) ⟨[1, 2], [0], [0], 1, wf⟩ j idx 0 = (idx (ix2 (j 0) 0)).toInt := by
    intro j
    unfold ScatterDims.start
    rw [dif_pos (List.mem_singleton.2 rfl)]
    exact congrArg (fun t => (idx t).toInt) (hsi j _)
  have hst1 : ∀ j : (⟨3, ![M, A, B]⟩ : Shape).Idx,
      ScatterDims.start (s := ⟨3, ![N, A, B]⟩) ⟨[1, 2], [0], [0], 1, wf⟩ j idx 1 = 0 := by
    intro j
    unfold ScatterDims.start
    rw [dif_neg (by simp)]
  have hst2 : ∀ j : (⟨3, ![M, A, B]⟩ : Shape).Idx,
      ScatterDims.start (s := ⟨3, ![N, A, B]⟩) ⟨[1, 2], [0], [0], 1, wf⟩ j idx 2 = 0 := by
    intro j
    unfold ScatterDims.start
    rw [dif_neg (by simp)]
  have hw0 : ∀ j : (⟨3, ![M, A, B]⟩ : Shape).Idx,
      ScatterDims.window (s := ⟨3, ![N, A, B]⟩) (si := ⟨2, ![M, 1]⟩) ⟨[1, 2], [0], [0], 1, wf⟩ j 0 = 0 := by
    intro j
    have h0 : (0 : Fin 3) ∉ ScatterDims.sKept (s := ⟨3, ![N, A, B]⟩) (si := ⟨2, ![M, 1]⟩) (u := ⟨3, ![M, A, B]⟩)
        ⟨[1, 2], [0], [0], 1, wf⟩ := by
      show (0 : Fin 3) ∉ ([1, 2] : List (Fin 3)); simp
    unfold ScatterDims.window
    rw [dif_neg h0]
  have hw1 : ∀ j : (⟨3, ![M, A, B]⟩ : Shape).Idx,
      ScatterDims.window (s := ⟨3, ![N, A, B]⟩) (si := ⟨2, ![M, 1]⟩) ⟨[1, 2], [0], [0], 1, wf⟩ j 1 = (j 1).val := by
    intro j
    have h1 : (1 : Fin 3) ∈ ScatterDims.sKept (s := ⟨3, ![N, A, B]⟩) (si := ⟨2, ![M, 1]⟩) (u := ⟨3, ![M, A, B]⟩)
        ⟨[1, 2], [0], [0], 1, wf⟩ := by
      show (1 : Fin 3) ∈ ([1, 2] : List (Fin 3)); simp
    unfold ScatterDims.window
    rw [dif_pos h1]
    show (j (([1, 2] : List (Fin 3))[List.idxOf (1 : Fin 3) ([1, 2] : List (Fin 3))]'_)).val = (j 1).val
    exact congrArg (fun t => (j t).val) (List.getElem_idxOf _)
  have hw2 : ∀ j : (⟨3, ![M, A, B]⟩ : Shape).Idx,
      ScatterDims.window (s := ⟨3, ![N, A, B]⟩) (si := ⟨2, ![M, 1]⟩) ⟨[1, 2], [0], [0], 1, wf⟩ j 2 = (j 2).val := by
    intro j
    have h2 : (2 : Fin 3) ∈ ScatterDims.sKept (s := ⟨3, ![N, A, B]⟩) (si := ⟨2, ![M, 1]⟩) (u := ⟨3, ![M, A, B]⟩)
        ⟨[1, 2], [0], [0], 1, wf⟩ := by
      show (2 : Fin 3) ∈ ([1, 2] : List (Fin 3)); simp
    unfold ScatterDims.window
    rw [dif_pos h2]
    show (j (([1, 2] : List (Fin 3))[List.idxOf (2 : Fin 3) ([1, 2] : List (Fin 3))]'_)).val = (j 2).val
    exact congrArg (fun t => (j t).val) (List.getElem_idxOf _)
  constructor
  · intro h
    unfold ScatterDims.resultIdx? at h
    split at h
    · next hc =>
      have hf := Option.some.inj h
      have e0 := congrArg Fin.val (congrFun hf 0)
      have e1 := congrArg Fin.val (congrFun hf 1)
      have e2 := congrArg Fin.val (congrFun hf 2)
      have c0 := hc 0
      simp only [hst0, hw0] at e0 c0
      simp only [hst1, hw1] at e1
      simp only [hst2, hw2] at e2
      change ((idx (ix2 m 0)).toInt + ((0 : Nat) : Int)).toNat = n.val at e0
      change 0 ≤ (idx (ix2 m 0)).toInt + ((0 : Nat) : Int) ∧ _ at c0
      change (0 + ((a.val : Nat) : Int)).toNat = a'.val at e1
      change (0 + ((b.val : Nat) : Int)).toNat = b'.val at e2
      exact ⟨by omega, Fin.ext (by omega), Fin.ext (by omega)⟩
    · exact absurd h (by simp)
  · rintro ⟨hT, rfl, rfl⟩
    have hcond : ∀ q : Fin 3, 0 ≤ ScatterDims.start (s := ⟨3, ![N, A, B]⟩) ⟨[1, 2], [0], [0], 1, wf⟩ (ix3 m a b) idx q
          + (ScatterDims.window (s := ⟨3, ![N, A, B]⟩) (si := ⟨2, ![M, 1]⟩) ⟨[1, 2], [0], [0], 1, wf⟩ (ix3 m a b) q : Int) ∧
        ScatterDims.start (s := ⟨3, ![N, A, B]⟩) ⟨[1, 2], [0], [0], 1, wf⟩ (ix3 m a b) idx q
          + (ScatterDims.window (s := ⟨3, ![N, A, B]⟩) (si := ⟨2, ![M, 1]⟩) ⟨[1, 2], [0], [0], 1, wf⟩ (ix3 m a b) q : Int)
          < ((⟨3, ![N, A, B]⟩ : Shape).size q : Int) := by
      intro q
      match q with
      | ⟨0, _⟩ =>
        rw [show (⟨0, by omega⟩ : Fin 3) = 0 from rfl, hst0, hw0]
        change 0 ≤ (idx (ix2 m 0)).toInt + ((0 : Nat) : Int) ∧ (idx (ix2 m 0)).toInt + ((0 : Nat) : Int) < (N : Int)
        have := n.isLt
        omega
      | ⟨1, _⟩ =>
        rw [show (⟨1, by omega⟩ : Fin 3) = 1 from rfl, hst1, hw1]
        change 0 ≤ 0 + ((a.val : Nat) : Int) ∧ 0 + ((a.val : Nat) : Int) < (A : Int)
        have := a.isLt
        omega
      | ⟨2, _⟩ =>
        rw [show (⟨2, by omega⟩ : Fin 3) = 2 from rfl, hst2, hw2]
        change 0 ≤ 0 + ((b.val : Nat) : Int) ∧ 0 + ((b.val : Nat) : Int) < (B : Int)
        have := b.isLt
        omega
    unfold ScatterDims.resultIdx?
    rw [dif_pos hcond]
    congr 1
    funext q
    apply Fin.ext
    match q with
    | ⟨0, _⟩ =>
      show (ScatterDims.start (s := ⟨3, ![N, A, B]⟩) ⟨[1, 2], [0], [0], 1, wf⟩ (ix3 m a b) idx 0
          + (ScatterDims.window (s := ⟨3, ![N, A, B]⟩) (si := ⟨2, ![M, 1]⟩) ⟨[1, 2], [0], [0], 1, wf⟩ (ix3 m a b) 0 : Int)).toNat = n.val
      rw [hst0, hw0]
      change ((idx (ix2 m 0)).toInt + ((0 : Nat) : Int)).toNat = n.val
      omega
    | ⟨1, _⟩ =>
      show (ScatterDims.start (s := ⟨3, ![N, A, B]⟩) ⟨[1, 2], [0], [0], 1, wf⟩ (ix3 m a b) idx 1
          + (ScatterDims.window (s := ⟨3, ![N, A, B]⟩) (si := ⟨2, ![M, 1]⟩) ⟨[1, 2], [0], [0], 1, wf⟩ (ix3 m a b) 1 : Int)).toNat = a.val
      rw [hst1, hw1]
      change (0 + ((a.val : Nat) : Int)).toNat = a.val
      omega
    | ⟨2, _⟩ =>
      show (ScatterDims.start (s := ⟨3, ![N, A, B]⟩) ⟨[1, 2], [0], [0], 1, wf⟩ (ix3 m a b) idx 2
          + (ScatterDims.window (s := ⟨3, ![N, A, B]⟩) (si := ⟨2, ![M, 1]⟩) ⟨[1, 2], [0], [0], 1, wf⟩ (ix3 m a b) 2 : Int)).toNat = b.val
      rw [hst2, hw2]
      change (0 + ((b.val : Nat) : Int)).toNat = b.val
      omega

/-- THE ROW FORM at rank 3: the accumulating scatter at operand element `(n, a, b)` is the operand there plus the sum of
    `upd (m, a, b)` over the update rows `m` whose index word `idx (m, 0)`, read signed, is `n`. -/
theorem hostScatterAdd_rows3 {N M A B w : Nat} (d : ScatterDims ⟨3, ![N, A, B]⟩ ⟨2, ![M, 1]⟩ ⟨3, ![M, A, B]⟩)
    (hd : RowScatter3 d) (x : (⟨3, ![N, A, B]⟩ : Shape).Idx → EReal) (idx : IVec ⟨2, ![M, 1]⟩ w)
    (upd : (⟨3, ![M, A, B]⟩ : Shape).Idx → EReal) (n : Fin N) (a : Fin A) (b : Fin B) :
    Ideal.hostScatterAdd d x idx upd (ix3 n a b)
      = x (ix3 n a b)
        + ∑ m ∈ Finset.univ.filter (fun m : Fin M => (idx (ix2 m 0)).toInt = (n.val : Int)), upd (ix3 m a b) := by
  unfold Ideal.hostScatterAdd
  congr 1
  symm
  refine Finset.sum_bij (fun m _ => ix3 m a b) ?_ ?_ ?_ ?_
  · intro m hm
    simp only [Finset.mem_filter, Finset.mem_univ, true_and] at hm ⊢
    exact (resultIdx?_rows3 d hd m a b idx n a b).2 ⟨hm, rfl, rfl⟩
  · intro m₁ _ m₂ _ h
    exact congrFun h 0
  · intro j hj
    obtain ⟨m, a₀, b₀, rfl⟩ : ∃ m a₀ b₀, j = ix3 m a₀ b₀ := ⟨j 0, j 1, j 2, eq_ix3 j⟩
    simp only [Finset.mem_filter, Finset.mem_univ, true_and] at hj
    obtain ⟨hT, ha, hb⟩ := (resultIdx?_rows3 d hd m a₀ b₀ idx n a b).1 hj
    subst ha hb
    exact ⟨m, by simp only [Finset.mem_filter, Finset.mem_univ, true_and]; exact hT, rfl⟩
  · intro m _; rfl

/-- The rank-3 row form stated on the printed operation (at the extended reals `Host.scatterAdd` is
    `Ideal.hostScatterAdd` by definition). -/
theorem scatterAdd_rows3 {N M A B w : Nat} {φ : FTy} (d : ScatterDims ⟨3, ![N, A, B]⟩ ⟨2, ![M, 1]⟩ ⟨3, ![M, A, B]⟩)
    (hd : RowScatter3 d) (x : FVec Ideal ⟨3, ![N, A, B]⟩ φ) (idx : IVec ⟨2, ![M, 1]⟩ w)
    (upd : FVec Ideal ⟨3, ![M, A, B]⟩ φ) (n : Fin N) (a : Fin A) (b : Fin B) :
    Host.scatterAdd d x idx upd (ix3 n a b)
      = x (ix3 n a b)
        + ∑ m ∈ Finset.univ.filter (fun m : Fin M => (idx (ix2 m 0)).toInt = (n.val : Int)), upd (ix3 m a b) :=
  hostScatterAdd_rows3 d hd x idx upd n a b

/-- A rank-3 row scatter of updates `[M, A, B]` and the rank-2 row scatter of the same updates flattened to
    `[M, A * B]`-style columns agree row-wise whenever the two update arrays agree elementwise and the operands do: both
    are "operand plus the sum over the rows whose index is `n`". Stated at one element: if `x₃ (n, a, b) = x₂ (n, c)`
    and `u₃ (m, a, b) = u₂ (m, c)` for every row `m`, and the two index columns read the same signed words, the two
    scatters agree at `(n, a, b)` / `(n, c)`. -/
theorem hostScatterAdd_rows3_eq_rows2 {N M A B C w w' : Nat}
    (d₃ : ScatterDims ⟨3, ![N, A, B]⟩ ⟨2, ![M, 1]⟩ ⟨3, ![M, A, B]⟩) (hd₃ : RowScatter3 d₃)
    (d₂ : ScatterDims ⟨2, ![N, C]⟩ ⟨2, ![M, 1]⟩ ⟨2, ![M, C]⟩) (hd₂ : RowScatter2 d₂)
    (x₃ : (⟨3, ![N, A, B]⟩ : Shape).Idx → EReal) (x₂ : (⟨2, ![N, C]⟩ : Shape).Idx → EReal)
    (i₃ : IVec ⟨2, ![M, 1]⟩ w) (i₂ : IVec ⟨2, ![M, 1]⟩ w')
    (u₃ : (⟨3, ![M, A, B]⟩ : Shape).Idx → EReal) (u₂ : (⟨2, ![M, C]⟩ : Shape).Idx → EReal)
    (n : Fin N) (a : Fin A) (b : Fin B) (c : Fin C)
    (hx : x₃ (ix3 n a b) = x₂ (ix2 n c)) (hi : ∀ m : Fin M, (i₃ (ix2 m 0)).toInt = (i₂ (ix2 m 0)).toInt)
    (hu : ∀ m : Fin M, u₃ (ix3 m a b) = u₂ (ix2 m c)) :
    Ideal.hostScatterAdd d₃ x₃ i₃ u₃ (ix3 n a b) = Ideal.hostScatterAdd d₂ x₂ i₂ u₂ (ix2 n c) := by
  rw [hostScatterAdd_rows3 d₃ hd₃, hostScatterAdd_rows2 d₂ hd₂, hx]
  congr 1
  exact Finset.sum_congr (Finset.filter_congr fun m _ => by rw [hi]) fun m _ => hu m

/-! ## The merged rank-2 scatter against two successive rank-3 scatters -/

/-- THE MERGE LAW ACROSS RANKS, at one element: a rank-2 row scatter of `M = M₁ + M₂` update rows `[M, C]` into
    `x₂ : [N, C]`, read at `(n, c)`, is the rank-3 row scatter of `u₁ : [M₁, A, B]` at `i₁` into `x₃ : [N, A, B]` followed by
    that of `u₂ : [M₂, A, B]` at `i₂`, read at `(n, a, b)`, whenever at that element the operands agree, the index column
    reads (signed) as `i₁` on its first `M₁` rows and as `i₂` on its last `M₂`, and column `c` of the updates is
    `u₁ (·, a, b)` on the first `M₁` rows and `u₂ (·, a, b)` on the last `M₂`. -/
theorem hostScatterAdd_rows2_merge_rows3 {N M M₁ M₂ A B C w w₁ w₂ : Nat} (hM : M = M₁ + M₂)
    (d : ScatterDims ⟨2, ![N, C]⟩ ⟨2, ![M, 1]⟩ ⟨2, ![M, C]⟩) (hd : RowScatter2 d)
    (d₁ : ScatterDims ⟨3, ![N, A, B]⟩ ⟨2, ![M₁, 1]⟩ ⟨3, ![M₁, A, B]⟩) (hd₁ : RowScatter3 d₁)
    (d₂ : ScatterDims ⟨3, ![N, A, B]⟩ ⟨2, ![M₂, 1]⟩ ⟨3, ![M₂, A, B]⟩) (hd₂ : RowScatter3 d₂)
    (x₂ : (⟨2, ![N, C]⟩ : Shape).Idx → EReal) (x₃ : (⟨3, ![N, A, B]⟩ : Shape).Idx → EReal)
    (idx : IVec ⟨2, ![M, 1]⟩ w) (i₁ : IVec ⟨2, ![M₁, 1]⟩ w₁) (i₂ : IVec ⟨2, ![M₂, 1]⟩ w₂)
    (upd : (⟨2, ![M, C]⟩ : Shape).Idx → EReal) (u₁ : (⟨3, ![M₁, A, B]⟩ : Shape).Idx → EReal)
    (u₂ : (⟨3, ![M₂, A, B]⟩ : Shape).Idx → EReal) (n : Fin N) (a : Fin A) (b : Fin B) (c : Fin C)
    (hx : x₂ (ix2 n c) = x₃ (ix3 n a b))
    (hi₁ : ∀ m : Fin M₁, (idx (ix2 ⟨m.val, lt_of_left hM m⟩ 0)).toInt = (i₁ (ix2 m 0)).toInt)
    (hi₂ : ∀ m : Fin M₂, (idx (ix2 ⟨M₁ + m.val, lt_of_right hM m⟩ 0)).toInt = (i₂ (ix2 m 0)).toInt)
    (hu₁ : ∀ m : Fin M₁, upd (ix2 ⟨m.val, lt_of_left hM m⟩ c) = u₁ (ix3 m a b))
    (hu₂ : ∀ m : Fin M₂, upd (ix2 ⟨M₁ + m.val, lt_of_right hM m⟩ c) = u₂ (ix3 m a b)) :
    Ideal.hostScatterAdd d x₂ idx upd (ix2 n c)
      = Ideal.hostScatterAdd d₂ (Ideal.hostScatterAdd d₁ x₃ i₁ u₁) i₂ u₂ (ix3 n a b) := by
  rw [hostScatterAdd_rows2_halves hM d hd, hostScatterAdd_rows3 d₂ hd₂, hostScatterAdd_rows3 d₁ hd₁, hx]
  congr 1
  · congr 1
    exact Finset.sum_congr (Finset.filter_congr fun m _ => by rw [hi₁]) fun m _ => hu₁ m
  · exact Finset.sum_congr (Finset.filter_congr fun m _ => by rw [hi₂]) fun m _ => hu₂ m

/-- THE MERGE LAW at rank 2, at one element (the pointwise form of `hostScatterAdd_rows2_merge`, its hypotheses asked
    only at the column `c` read). -/
theorem hostScatterAdd_rows2_merge_at {N M M₁ M₂ C w w₁ w₂ : Nat} (hM : M = M₁ + M₂)
    (d : ScatterDims ⟨2, ![N, C]⟩ ⟨2, ![M, 1]⟩ ⟨2, ![M, C]⟩) (hd : RowScatter2 d)
    (d₁ : ScatterDims ⟨2, ![N, C]⟩ ⟨2, ![M₁, 1]⟩ ⟨2, ![M₁, C]⟩) (hd₁ : RowScatter2 d₁)
    (d₂ : ScatterDims ⟨2, ![N, C]⟩ ⟨2, ![M₂, 1]⟩ ⟨2, ![M₂, C]⟩) (hd₂ : RowScatter2 d₂)
    (x x' : (⟨2, ![N, C]⟩ : Shape).Idx → EReal)
    (idx : IVec ⟨2, ![M, 1]⟩ w) (i₁ : IVec ⟨2, ![M₁, 1]⟩ w₁) (i₂ : IVec ⟨2, ![M₂, 1]⟩ w₂)
    (upd : (⟨2, ![M, C]⟩ : Shape).Idx → EReal) (u₁ : (⟨2, ![M₁, C]⟩ : Shape).Idx → EReal)
    (u₂ : (⟨2, ![M₂, C]⟩ : Shape).Idx → EReal) (n : Fin N) (c : Fin C)
    (hx : x (ix2 n c) = x' (ix2 n c))
    (hi₁ : ∀ m : Fin M₁, (idx (ix2 ⟨m.val, lt_of_left hM m⟩ 0)).toInt = (i₁ (ix2 m 0)).toInt)
    (hi₂ : ∀ m : Fin M₂, (idx (ix2 ⟨M₁ + m.val, lt_of_right hM m⟩ 0)).toInt = (i₂ (ix2 m 0)).toInt)
    (hu₁ : ∀ m : Fin M₁, upd (ix2 ⟨m.val, lt_of_left hM m⟩ c) = u₁ (ix2 m c))
    (hu₂ : ∀ m : Fin M₂, upd (ix2 ⟨M₁ + m.val, lt_of_right hM m⟩ c) = u₂ (ix2 m c)) :
    Ideal.hostScatterAdd d x idx upd (ix2 n c)
      = Ideal.hostScatterAdd d₂ (Ideal.hostScatterAdd d₁ x' i₁ u₁) i₂ u₂ (ix2 n c) := by
  rw [hostScatterAdd_rows2_halves hM d hd, hostScatterAdd_rows2 d₂ hd₂, hostScatterAdd_rows2 d₁ hd₁, hx]
  congr 1
  · congr 1
    exact Finset.sum_congr (Finset.filter_congr fun m _ => by rw [hi₁]) fun m _ => hu₁ m
  · exact Finset.sum_congr (Finset.filter_congr fun m _ => by rw [hi₂]) fun m _ => hu₂ m

/-! ## An index column broadcast from an index vector -/

/-- A vector `[M]` broadcast to a column `[M, 1]` (`broadcast_in_dim` with `dims = [0]`), read at row `j`: the vector
    at `j`. -/
theorem broadcastInDim_col_apply {α : Type} {M : Nat}
    (h : (⟨1, ![M]⟩ : Shape).BroadcastsInDim ⟨2, ![M, 1]⟩ (![0] : Fin 1 → Fin 2))
    (x : (⟨1, ![M]⟩ : Shape).Idx → α) (j : Fin M) (k : Fin 1) :
    broadcastInDim ⟨2, ![M, 1]⟩ ![0] h x (ix2 j k) = x (ix1 j) := by
  refine broadcastInDim_apply _ h x (ix2 j k) (ix1 j) fun a => ?_
  match a with
  | ⟨0, _⟩ =>
    show j.val = if M = 1 then 0 else j.val
    split
    · next h1 => have := j.isLt; omega
    · rfl

/-! ## The index wrap, and the merged index column of two stacked index vectors -/

/-- A negative index word counted from the end: `v + n` where `v` is negative (read signed), else `v`. -/
def wrapW (n v : BitVec 32) : BitVec 32 := Scalar.select (IntOp.cmpi .slt v 0#32) (IntOp.addi v n) v

/-- The wrap of an index array of shape `s` by `n`, operation by operation: where the word is negative (the signed
    comparison with the broadcast constant `0`) the word plus the broadcast constant `n`, elsewhere the word. -/
abbrev wrapI (s : Shape) (hb : (⟨0, ![]⟩ : Shape).BroadcastsInDim s (![] : Fin 0 → Fin s.rank)) (n : BitVec 32)
    (x : IVec s 32) : IVec s 32 :=
  select (cmpi .slt x (broadcastInDim s ![] hb (constantI ⟨0, ![]⟩ 32 0#32)))
    (addi x (broadcastInDim s ![] hb (constantI ⟨0, ![]⟩ 32 n))) x

/-- The wrap acts word by word. -/
theorem wrapI_apply (s : Shape) (hb : (⟨0, ![]⟩ : Shape).BroadcastsInDim s (![] : Fin 0 → Fin s.rank)) (n : BitVec 32)
    (x : IVec s 32) (i : s.Idx) : wrapI s hb n x i = wrapW n (x i) := rfl

/-- The wrapped index column of an index vector `[M]`: the vector wrapped by `n` and broadcast to a column `[M, 1]`. -/
abbrev wrapCol {M : Nat} (hb : (⟨0, ![]⟩ : Shape).BroadcastsInDim ⟨1, ![M]⟩ (![] : Fin 0 → Fin 1))
    (hc : (⟨1, ![M]⟩ : Shape).BroadcastsInDim ⟨2, ![M, 1]⟩ (![0] : Fin 1 → Fin 2)) (n : BitVec 32)
    (v : IVec ⟨1, ![M]⟩ 32) : IVec ⟨2, ![M, 1]⟩ 32 :=
  broadcastInDim ⟨2, ![M, 1]⟩ ![0] hc (wrapI ⟨1, ![M]⟩ hb n v)

/-- The wrapped index column at row `j`: the wrap of the vector's word `j`. -/
theorem wrapCol_apply {M : Nat} (hb : (⟨0, ![]⟩ : Shape).BroadcastsInDim ⟨1, ![M]⟩ (![] : Fin 0 → Fin 1))
    (hc : (⟨1, ![M]⟩ : Shape).BroadcastsInDim ⟨2, ![M, 1]⟩ (![0] : Fin 1 → Fin 2)) (n : BitVec 32)
    (v : IVec ⟨1, ![M]⟩ 32) (j : Fin M) (k : Fin 1) : wrapCol hb hc n v (ix2 j k) = wrapW n (v (ix1 j)) := by
  unfold wrapCol
  rw [broadcastInDim_col_apply]
  rfl

/-- Wrapping after stacking is wrapping before, on the first block: the wrapped column of the concatenation of
    `t₁ : [M₁]` and `t₂ : [M₂]`, at a row `j = m < M₁`, is the wrapped column of `t₁` at `m`. -/
theorem wrapCol_concat_left {M M₁ M₂ : Nat}
    (hbM : (⟨0, ![]⟩ : Shape).BroadcastsInDim ⟨1, ![M]⟩ (![] : Fin 0 → Fin 1))
    (hcM : (⟨1, ![M]⟩ : Shape).BroadcastsInDim ⟨2, ![M, 1]⟩ (![0] : Fin 1 → Fin 2))
    (hb₁ : (⟨0, ![]⟩ : Shape).BroadcastsInDim ⟨1, ![M₁]⟩ (![] : Fin 0 → Fin 1))
    (hc₁ : (⟨1, ![M₁]⟩ : Shape).BroadcastsInDim ⟨2, ![M₁, 1]⟩ (![0] : Fin 1 → Fin 2))
    (hI : Shape.Concatenates [⟨1, ![M₁]⟩, ⟨1, ![M₂]⟩] ⟨1, ![M]⟩ 0) (n : BitVec 32)
    (t₁ : IVec ⟨1, ![M₁]⟩ 32) (t₂ : IVec ⟨1, ![M₂]⟩ 32) (j : Fin M) (m : Fin M₁) (hj : j.val = m.val) (k : Fin 1) :
    wrapCol hbM hcM n (concatenate ⟨1, ![M]⟩ 0 [⟨⟨1, ![M₁]⟩, t₁⟩, ⟨⟨1, ![M₂]⟩, t₂⟩] hI) (ix2 j k)
      = wrapCol hb₁ hc₁ n t₁ (ix2 m k) := by
  rw [wrapCol_apply, wrapCol_apply, concatenate_rows1_left t₁ t₂ hI j m hj]

/-- Wrapping after stacking is wrapping before, on the second block: at a row `j = M₁ + m`, `m < M₂`, the wrapped
    column of the concatenation is the wrapped column of `t₂` at `m`. -/
theorem wrapCol_concat_right {M M₁ M₂ : Nat}
    (hbM : (⟨0, ![]⟩ : Shape).BroadcastsInDim ⟨1, ![M]⟩ (![] : Fin 0 → Fin 1))
    (hcM : (⟨1, ![M]⟩ : Shape).BroadcastsInDim ⟨2, ![M, 1]⟩ (![0] : Fin 1 → Fin 2))
    (hb₂ : (⟨0, ![]⟩ : Shape).BroadcastsInDim ⟨1, ![M₂]⟩ (![] : Fin 0 → Fin 1))
    (hc₂ : (⟨1, ![M₂]⟩ : Shape).BroadcastsInDim ⟨2, ![M₂, 1]⟩ (![0] : Fin 1 → Fin 2))
    (hI : Shape.Concatenates [⟨1, ![M₁]⟩, ⟨1, ![M₂]⟩] ⟨1, ![M]⟩ 0) (n : BitVec 32)
    (t₁ : IVec ⟨1, ![M₁]⟩ 32) (t₂ : IVec ⟨1, ![M₂]⟩ 32) (j : Fin M) (m : Fin M₂) (hj : j.val = M₁ + m.val)
    (k : Fin 1) :
    wrapCol hbM hcM n (concatenate ⟨1, ![M]⟩ 0 [⟨⟨1, ![M₁]⟩, t₁⟩, ⟨⟨1, ![M₂]⟩, t₂⟩] hI) (ix2 j k)
      = wrapCol hb₂ hc₂ n t₂ (ix2 m k) := by
  rw [wrapCol_apply, wrapCol_apply, concatenate_rows1_right t₁ t₂ hI j m hj]

/-- THE MERGED SCATTER, whole arrays at rank 2: ONE scatter of two stacked update blocks `u₁ : [M₁, C]`, `u₂ : [M₂, C]`
    at the wrapped column of two stacked index vectors `t₁ : [M₁]`, `t₂ : [M₂]` (wrapped AFTER stacking) is the scatter
    of `u₁` at the wrapped column of `t₁` followed by the scatter of `u₂` at the wrapped column of `t₂` (each wrapped
    BEFORE). -/
theorem hostScatterAdd_rows2_wrapcat {N M M₁ M₂ C : Nat} (hM : M = M₁ + M₂)
    (d : ScatterDims ⟨2, ![N, C]⟩ ⟨2, ![M, 1]⟩ ⟨2, ![M, C]⟩) (hd : RowScatter2 d)
    (d₁ : ScatterDims ⟨2, ![N, C]⟩ ⟨2, ![M₁, 1]⟩ ⟨2, ![M₁, C]⟩) (hd₁ : RowScatter2 d₁)
    (d₂ : ScatterDims ⟨2, ![N, C]⟩ ⟨2, ![M₂, 1]⟩ ⟨2, ![M₂, C]⟩) (hd₂ : RowScatter2 d₂)
    (hbM : (⟨0, ![]⟩ : Shape).BroadcastsInDim ⟨1, ![M]⟩ (![] : Fin 0 → Fin 1))
    (hcM : (⟨1, ![M]⟩ : Shape).BroadcastsInDim ⟨2, ![M, 1]⟩ (![0] : Fin 1 → Fin 2))
    (hb₁ : (⟨0, ![]⟩ : Shape).BroadcastsInDim ⟨1, ![M₁]⟩ (![] : Fin 0 → Fin 1))
    (hc₁ : (⟨1, ![M₁]⟩ : Shape).BroadcastsInDim ⟨2, ![M₁, 1]⟩ (![0] : Fin 1 → Fin 2))
    (hb₂ : (⟨0, ![]⟩ : Shape).BroadcastsInDim ⟨1, ![M₂]⟩ (![] : Fin 0 → Fin 1))
    (hc₂ : (⟨1, ![M₂]⟩ : Shape).BroadcastsInDim ⟨2, ![M₂, 1]⟩ (![0] : Fin 1 → Fin 2))
    (hI : Shape.Concatenates [⟨1, ![M₁]⟩, ⟨1, ![M₂]⟩] ⟨1, ![M]⟩ 0)
    (hU : Shape.Concatenates [⟨2, ![M₁, C]⟩, ⟨2, ![M₂, C]⟩] ⟨2, ![M, C]⟩ 0) (n : BitVec 32)
    (x : (⟨2, ![N, C]⟩ : Shape).Idx → EReal) (t₁ : IVec ⟨1, ![M₁]⟩ 32) (t₂ : IVec ⟨1, ![M₂]⟩ 32)
    (u₁ : (⟨2, ![M₁, C]⟩ : Shape).Idx → EReal) (u₂ : (⟨2, ![M₂, C]⟩ : Shape).Idx → EReal) :
    Ideal.hostScatterAdd d x
        (wrapCol hbM hcM n (concatenate ⟨1, ![M]⟩ 0 [⟨⟨1, ![M₁]⟩, t₁⟩, ⟨⟨1, ![M₂]⟩, t₂⟩] hI))
        (concatenate ⟨2, ![M, C]⟩ 0 [⟨⟨2, ![M₁, C]⟩, u₁⟩, ⟨⟨2, ![M₂, C]⟩, u₂⟩] hU)
      = Ideal.hostScatterAdd d₂ (Ideal.hostScatterAdd d₁ x (wrapCol hb₁ hc₁ n t₁) u₁) (wrapCol hb₂ hc₂ n t₂) u₂ :=
  hostScatterAdd_rows2_merge hM d hd d₁ hd₁ d₂ hd₂ x _ _ _ _ u₁ u₂
    (fun m => congrArg BitVec.toInt (wrapCol_concat_left hbM hcM hb₁ hc₁ hI n t₁ t₂ _ m rfl 0))
    (fun m => congrArg BitVec.toInt (wrapCol_concat_right hbM hcM hb₂ hc₂ hI n t₁ t₂ _ m rfl 0))
    (fun m c => concatenate_rows2_left u₁ u₂ hU _ m c rfl)
    (fun m c => concatenate_rows2_right u₁ u₂ hU _ m c rfl)

/-- THE MERGED SCATTER AGAINST TWO RANK-3 SCATTERS, at one element: ONE rank-2 scatter of two stacked update blocks
    `u₁ : [M₁, C]`, `u₂ : [M₂, C]` at the wrapped column of two stacked index vectors, read at `(k, c)`, is the rank-3
    scatter of `v₁ : [M₁, A, B]` at the wrapped column of `t₁` followed by that of `v₂ : [M₂, A, B]` at the wrapped column
    of `t₂`, read at `(k, a, b)`, whenever the operands agree at that element and column `c` of `u₁`, `u₂` is
    `v₁ (·, a, b)`, `v₂ (·, a, b)`. -/
theorem hostScatterAdd_rows2_wrapcat_rows3 {N M M₁ M₂ A B C : Nat} (hM : M = M₁ + M₂)
    (d : ScatterDims ⟨2, ![N, C]⟩ ⟨2, ![M, 1]⟩ ⟨2, ![M, C]⟩) (hd : RowScatter2 d)
    (d₁ : ScatterDims ⟨3, ![N, A, B]⟩ ⟨2, ![M₁, 1]⟩ ⟨3, ![M₁, A, B]⟩) (hd₁ : RowScatter3 d₁)
    (d₂ : ScatterDims ⟨3, ![N, A, B]⟩ ⟨2, ![M₂, 1]⟩ ⟨3, ![M₂, A, B]⟩) (hd₂ : RowScatter3 d₂)
    (hbM : (⟨0, ![]⟩ : Shape).BroadcastsInDim ⟨1, ![M]⟩ (![] : Fin 0 → Fin 1))
    (hcM : (⟨1, ![M]⟩ : Shape).BroadcastsInDim ⟨2, ![M, 1]⟩ (![0] : Fin 1 → Fin 2))
    (hb₁ : (⟨0, ![]⟩ : Shape).BroadcastsInDim ⟨1, ![M₁]⟩ (![] : Fin 0 → Fin 1))
    (hc₁ : (⟨1, ![M₁]⟩ : Shape).BroadcastsInDim ⟨2, ![M₁, 1]⟩ (![0] : Fin 1 → Fin 2))
    (hb₂ : (⟨0, ![]⟩ : Shape).BroadcastsInDim ⟨1, ![M₂]⟩ (![] : Fin 0 → Fin 1))
    (hc₂ : (⟨1, ![M₂]⟩ : Shape).BroadcastsInDim ⟨2, ![M₂, 1]⟩ (![0] : Fin 1 → Fin 2))
    (hI : Shape.Concatenates [⟨1, ![M₁]⟩, ⟨1, ![M₂]⟩] ⟨1, ![M]⟩ 0)
    (hU : Shape.Concatenates [⟨2, ![M₁, C]⟩, ⟨2, ![M₂, C]⟩] ⟨2, ![M, C]⟩ 0) (n : BitVec 32)
    (x₂ : (⟨2, ![N, C]⟩ : Shape).Idx → EReal) (x₃ : (⟨3, ![N, A, B]⟩ : Shape).Idx → EReal)
    (t₁ : IVec ⟨1, ![M₁]⟩ 32) (t₂ : IVec ⟨1, ![M₂]⟩ 32)
    (u₁ : (⟨2, ![M₁, C]⟩ : Shape).Idx → EReal) (u₂ : (⟨2, ![M₂, C]⟩ : Shape).Idx → EReal)
    (v₁ : (⟨3, ![M₁, A, B]⟩ : Shape).Idx → EReal) (v₂ : (⟨3, ![M₂, A, B]⟩ : Shape).Idx → EReal)
    (k : Fin N) (a : Fin A) (b : Fin B) (c : Fin C)
    (hx : x₂ (ix2 k c) = x₃ (ix3 k a b))
    (hv₁ : ∀ m : Fin M₁, u₁ (ix2 m c) = v₁ (ix3 m a b)) (hv₂ : ∀ m : Fin M₂, u₂ (ix2 m c) = v₂ (ix3 m a b)) :
    Ideal.hostScatterAdd d x₂
        (wrapCol hbM hcM n (concatenate ⟨1, ![M]⟩ 0 [⟨⟨1, ![M₁]⟩, t₁⟩, ⟨⟨1, ![M₂]⟩, t₂⟩] hI))
        (concatenate ⟨2, ![M, C]⟩ 0 [⟨⟨2, ![M₁, C]⟩, u₁⟩, ⟨⟨2, ![M₂, C]⟩, u₂⟩] hU) (ix2 k c)
      = Ideal.hostScatterAdd d₂ (Ideal.hostScatterAdd d₁ x₃ (wrapCol hb₁ hc₁ n t₁) v₁) (wrapCol hb₂ hc₂ n t₂) v₂
          (ix3 k a b) :=
  hostScatterAdd_rows2_merge_rows3 hM d hd d₁ hd₁ d₂ hd₂ x₂ x₃ _ _ _ _ v₁ v₂ k a b c hx
    (fun m => congrArg BitVec.toInt (wrapCol_concat_left hbM hcM hb₁ hc₁ hI n t₁ t₂ _ m rfl 0))
    (fun m => congrArg BitVec.toInt (wrapCol_concat_right hbM hcM hb₂ hc₂ hI n t₁ t₂ _ m rfl 0))
    (fun m => (concatenate_rows2_left u₁ u₂ hU _ m c rfl).trans (hv₁ m))
    (fun m => (concatenate_rows2_right u₁ u₂ hU _ m c rfl).trans (hv₂ m))

end Cert.Lib
-- ==== Proof.RefValue.lean ====
/-
  What the reference computes, element by element, on the extended reals: each node's row through the three rectified
  dense layers, then the per-graph sums by an accumulating scatter over the nodes' graph words, divided by the per-graph
  counts. The scatter at graph `g` adds up the features of the nodes whose word, read signed, is `g`.
-/
import proofs.«425669_j3539053052342_3_alg».proof.Proof.Gen.ReferenceIdeal.Read
import proofs.«425669_j3539053052342_3_alg».proof.Proof.Mlp
import proofs.«425669_j3539053052342_3_alg».proof.Proof.LibScatterRows

noncomputable section

open scoped BigOperators

namespace Cert.ReferenceIdeal.RefValue

open Cert.ReferenceIdeal Cert.ReferenceIdeal.Read Idealize.ShloMosaic Idealize.ShloMosaic.ValueIdx Cert.Lib Cert.Spec

variable (x0 : (⟨S100000x512, .f32⟩ : BufTy).Contents (Elt Ideal)) (x2 : (⟨S100000, .i32⟩ : BufTy).Contents (Elt Ideal))
  (x3 : (⟨S512x1024, .f32⟩ : BufTy).Contents (Elt Ideal)) (x4 : (⟨S1024, .f32⟩ : BufTy).Contents (Elt Ideal))
  (x5 : (⟨S1024x1024, .f32⟩ : BufTy).Contents (Elt Ideal)) (x6 : (⟨S1024, .f32⟩ : BufTy).Contents (Elt Ideal))
  (x7 : (⟨S1024x512, .f32⟩ : BufTy).Contents (Elt Ideal)) (x8 : (⟨S512, .f32⟩ : BufTy).Contents (Elt Ideal))

/-- The first layer at node `m`, unit `j`. -/
theorem layer0_apply (m : Fin 100000) (j : Fin 1024) :
    val_main_v4 (F := Ideal) x0 x3 x4 (ix2 m j)
      = dense (fun i => x0 (ix2 m i)) (fun i k => x3 (ix2 i k)) (fun k => x4 (ix1 k)) j := by
  rw [val_main_v4_apply, val_main_v3_apply, val_main_v0_apply, val_main_v2_apply, val_main_v1_apply,
    val_main_call0_v0_apply, val_main_call0_cst_apply]
  have el : ∀ k : Fin 512, lidx_main_v0 (ix2 m j) k = ix2 m k := fun k => funext fun a => by
    match a with
    | ⟨0, _⟩ => rfl
    | ⟨1, _⟩ => rfl
  have er : ∀ k : Fin 512, ridx_main_v0 (ix2 m j) k = ix2 k j := fun k => funext fun a => by
    match a with
    | ⟨0, _⟩ => rfl
    | ⟨1, _⟩ => rfl
  have eb : idx_main_v1 (idx_main_v2 (ix2 m j)) = ix1 j := funext fun a => by
    match a with
    | ⟨0, _⟩ => rfl
  simp only [el, er, eb]
  rfl

/-- The second layer at node `m`, unit `j`, over the first layer's row. -/
theorem layer1_apply (m : Fin 100000) (j : Fin 1024) :
    val_main_v9 (F := Ideal) x0 x3 x4 x5 x6 (ix2 m j)
      = dense (fun i => val_main_v4 (F := Ideal) x0 x3 x4 (ix2 m i)) (fun i k => x5 (ix2 i k)) (fun k => x6 (ix1 k)) j := by
  rw [val_main_v9_apply, val_main_v8_apply, val_main_v5_apply, val_main_v7_apply, val_main_v6_apply,
    val_main_call1_v0_apply, val_main_call1_cst_apply]
  have el : ∀ k : Fin 1024, lidx_main_v5 (ix2 m j) k = ix2 m k := fun k => funext fun a => by
    match a with
    | ⟨0, _⟩ => rfl
    | ⟨1, _⟩ => rfl
  have er : ∀ k : Fin 1024, ridx_main_v5 (ix2 m j) k = ix2 k j := fun k => funext fun a => by
    match a with
    | ⟨0, _⟩ => rfl
    | ⟨1, _⟩ => rfl
  have eb : idx_main_v6 (idx_main_v7 (ix2 m j)) = ix1 j := funext fun a => by
    match a with
    | ⟨0, _⟩ => rfl
  simp only [el, er, eb]
  rfl

/-- The third layer at node `m`, feature `c`, over the second layer's row. -/
theorem layer2_apply (m : Fin 100000) (c : Fin 512) :
    val_main_v14 (F := Ideal) x0 x3 x4 x5 x6 x7 x8 (ix2 m c)
      = dense (fun i => val_main_v9 (F := Ideal) x0 x3 x4 x5 x6 (ix2 m i)) (fun i k => x7 (ix2 i k)) (fun k => x8 (ix1 k)) c := by
  rw [val_main_v14_apply, val_main_v13_apply, val_main_v10_apply, val_main_v12_apply, val_main_v11_apply,
    val_main_call2_v0_apply, val_main_call2_cst_apply]
  have el : ∀ k : Fin 1024, lidx_main_v10 (ix2 m c) k = ix2 m k := fun k => funext fun a => by
    match a with
    | ⟨0, _⟩ => rfl
    | ⟨1, _⟩ => rfl
  have er : ∀ k : Fin 1024, ridx_main_v10 (ix2 m c) k = ix2 k c := fun k => funext fun a => by
    match a with
    | ⟨0, _⟩ => rfl
    | ⟨1, _⟩ => rfl
  have eb : idx_main_v11 (idx_main_v12 (ix2 m c)) = ix1 c := funext fun a => by
    match a with
    | ⟨0, _⟩ => rfl
  simp only [el, er, eb]
  rfl

/-- A node's features after the three layers: the three-layer function of the node's row. -/
theorem feat_apply (m : Fin 100000) (c : Fin 512) :
    val_main_v14 (F := Ideal) x0 x3 x4 x5 x6 x7 x8 (ix2 m c)
      = mlp (fun i => x0 (ix2 m i)) (fun i k => x3 (ix2 i k)) (fun k => x4 (ix1 k)) (fun i k => x5 (ix2 i k))
          (fun k => x6 (ix1 k)) (fun i k => x7 (ix2 i k)) (fun k => x8 (ix1 k)) c := by
  rw [layer2_apply]
  unfold mlp
  refine congrArg (fun a => dense a (fun i k => x7 (ix2 i k)) (fun k => x8 (ix1 k)) c) (funext fun j => ?_)
  rw [layer1_apply]
  exact congrArg (fun a => dense a (fun i k => x5 (ix2 i k)) (fun k => x6 (ix1 k)) j) (funext fun i => layer0_apply x0 x3 x4 m i)

theorem rows : RowScatter2 scatter_S128x512_S100000x1_S100000x512_1_0_0_1 := ⟨rfl, rfl, rfl, rfl⟩

/-- The per-graph sums at graph `g`, feature `c`: the zero word's value plus the sum, over the nodes whose graph word
    read signed is `g`, of the node's three-layer feature `c`. -/
theorem sums_apply (g : Fin 128) (c : Fin 512) :
    val_main_v17 (F := Ideal) x0 x2 x3 x4 x5 x6 x7 x8 (ix2 g c)
      = Ideal.ofBits .f32 0x00000000#32
          + ∑ m ∈ Finset.univ.filter (fun m : Fin 100000 => (x2 (ix1 m)).toInt = (g.val : Int)),
              mlp (fun i => x0 (ix2 m i)) (fun i k => x3 (ix2 i k)) (fun k => x4 (ix1 k)) (fun i k => x5 (ix2 i k))
                (fun k => x6 (ix1 k)) (fun i k => x7 (ix2 i k)) (fun k => x8 (ix1 k)) c := by
  unfold val_main_v17
  rw [scatterAdd_rows2 scatter_S128x512_S100000x1_S100000x512_1_0_0_1 rows _ _ _ g c]
  rw [val_main_v15_apply, val_main_cst_apply]
  have ei : ∀ m : Fin 100000, val_main_v16 (F := Ideal) x2 (ix2 m 0) = x2 (ix1 m) := fun m => by
    rw [val_main_v16_apply]
    refine congrArg x2 (funext fun a => ?_)
    match a with
    | ⟨0, _⟩ => rfl
  simp only [ei]
  simp only [feat_apply]
  rfl

/-- THE REFERENCE'S RESULT at graph `g`, feature `c`: the per-graph sum divided by the graph's count (the count left
    as the reference's own term). -/
theorem result_apply (g : Fin 128) (c : Fin 512) :
    val_main_v24 (F := Ideal) x0 x2 x3 x4 x5 x6 x7 x8 (ix2 g c)
      = FloatOps.hostDivf
          (Ideal.ofBits .f32 0x00000000#32
            + ∑ m ∈ Finset.univ.filter (fun m : Fin 100000 => (x2 (ix1 m)).toInt = (g.val : Int)),
                mlp (fun i => x0 (ix2 m i)) (fun i k => x3 (ix2 i k)) (fun k => x4 (ix1 k)) (fun i k => x5 (ix2 i k))
                  (fun k => x6 (ix1 k)) (fun i k => x7 (ix2 i k)) (fun k => x8 (ix1 k)) c)
          (val_main_v23 (F := Ideal) x2 (ix2 g c)) := by
  rw [val_main_v24_apply, sums_apply]

end Cert.ReferenceIdeal.RefValue

end
-- ==== Proof.Bridge.lean ====
/-
  The two results are one function of the arguments. The kernel's result at graph `g`, feature `c` is the zero word's
  value plus the sum over the 50 tiles of the tile's partial pooled sum, divided by the count; the reference's is the zero
  word's value plus the sum over the nodes of graph `g` of the node's feature, divided by the same count. Pooling tile by
  tile is pooling all nodes at once, so the two agree, at every extended-real input.
-/
import proofs.«425669_j3539053052342_3_alg».proof.Proof.KernelValue
import proofs.«425669_j3539053052342_3_alg».proof.Proof.RefValue
import Idealize.ShloMosaic.Lib.IdealHost

set_option maxRecDepth 16384

noncomputable section

open scoped BigOperators

namespace Cert.Bridge

open Idealize.ShloMosaic Idealize.ShloMosaic.TcCoe Idealize.SL.Sem Idealize.ShloMosaic.ValueIdx Cert.Spec Cert.Lib

/-- Summing the output `[50, 128, 512]` over its leading axis, at `(g, c)`: the initial value plus the sum over the
    tiles `t` of the array at `(t, g, c)`. -/
theorem reduce_tiles (x : Cert.KernelIdeal.S50x128x512.Idx → EReal) (init : Cert.KernelIdeal.S_.Idx → EReal)
    (g : Fin 128) (c : Fin 512) :
    Host.reduceAdd (F := Ideal) (φ := .f32) x init Cert.KernelIdeal.Facts₀.reducesTo_S50x128x512_S128x512_d0
        Cert.KernelIdeal.Facts₀.h_S_ (ix2 g c)
      = init (Shape.Idx.first Cert.KernelIdeal.Facts₀.h_S_) + ∑ t : Fin 50, x (ix3 t g c) := by
  have h : Cert.KernelIdeal.S50x128x512.Reduces [0] Cert.KernelIdeal.S128x512 := by decide
  rw [hostReduceAdd_apply, Ideal.hostReduceAdd_single _ h]
  refine congrArg (init _ + ·) (Finset.sum_congr rfl fun t _ => congrArg x (funext fun a => Fin.ext ?_))
  match a with
  | ⟨0, _⟩ => rfl
  | ⟨1, _⟩ => rfl
  | ⟨2, _⟩ => rfl

variable (m : (ℓ : Loc Cert.KernelIdeal.nD Cert.KernelIdeal.τ Cert.KernelIdeal.sig) → Buf (Elt Ideal) ℓ)

/-- THE KERNEL'S RESULT IS THE REFERENCE'S FUNCTION of the argument arrays. -/
theorem result_eq (c : Dev Cert.KernelIdeal.nD) :
    Cert.KernelIdeal.KValue.result m c
      = Cert.ReferenceIdeal.Read.val_main_v24 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg2))
          (m ((c : Thread Cert.KernelIdeal.nD Cert.KernelIdeal.τ).loc Cert.KernelIdeal.main_arg3))
          (m ((c : Thread Cert.KernelIdeal.nD Cert.KernelIdeal.τ).loc Cert.KernelIdeal.main_arg4))
          (m ((c : Thread Cert.KernelIdeal.nD Cert.KernelIdeal.τ).loc Cert.KernelIdeal.main_arg5))
          (m ((c : Thread Cert.KernelIdeal.nD Cert.KernelIdeal.τ).loc Cert.KernelIdeal.main_arg6))
          (m ((c : Thread Cert.KernelIdeal.nD Cert.KernelIdeal.τ).loc Cert.KernelIdeal.main_arg7))
          (m ((c : Thread Cert.KernelIdeal.nD Cert.KernelIdeal.τ).loc Cert.KernelIdeal.main_arg8)) := by
  funext i
  obtain ⟨g, cc, rfl⟩ : ∃ (g : Fin 128) (cc : Fin 512), i = ix2 g cc := ⟨i 0, i 1, eq_ix2 i⟩
  rw [Cert.ReferenceIdeal.RefValue.result_apply]
  show FloatOps.hostDivf
      (Host.reduceAdd (F := Ideal) (φ := .f32) (Cert.KernelIdeal.KValue.partials m c) _
        Cert.KernelIdeal.Facts₀.reducesTo_S50x128x512_S128x512_d0 Cert.KernelIdeal.Facts₀.h_S_ (ix2 g cc))
      (Cert.KernelIdeal.KValue.counts _ (ix2 g cc)) = _
  rw [reduce_tiles]
  have hs : ∑ t : Fin 50, Cert.KernelIdeal.KValue.partials m c (ix3 t g cc)
      = ∑ t : Fin 50, tilePool (m ((c : Thread Cert.KernelIdeal.nD Cert.KernelIdeal.τ).loc Cert.KernelIdeal.main_arg0))
          (m ((c : Thread Cert.KernelIdeal.nD Cert.KernelIdeal.τ).loc Cert.KernelIdeal.main_arg3))
          (m ((c : Thread Cert.KernelIdeal.nD Cert.KernelIdeal.τ).loc Cert.KernelIdeal.main_arg4))
          (m ((c : Thread Cert.KernelIdeal.nD Cert.KernelIdeal.τ).loc Cert.KernelIdeal.main_arg5))
          (m ((c : Thread Cert.KernelIdeal.nD Cert.KernelIdeal.τ).loc Cert.KernelIdeal.main_arg6))
          (m ((c : Thread Cert.KernelIdeal.nD Cert.KernelIdeal.τ).loc Cert.KernelIdeal.main_arg7))
          (m ((c : Thread Cert.KernelIdeal.nD Cert.KernelIdeal.τ).loc Cert.KernelIdeal.main_arg8))
          (m ((c : Thread Cert.KernelIdeal.nD Cert.KernelIdeal.τ).loc Cert.KernelIdeal.main_arg2)) t g cc := rfl
  rw [hs, sum_tilePool]
  rfl

end Cert.Bridge

end
-- ==== Proof.lean ====
/-
  A fused graph-pooling network: 100000 nodes with 512 features each pass through three dense layers with a rectifier
  (512 → 1024 → 1024 → 512), and the nodes' features are averaged per graph (128 graphs, a node's graph given by its
  32-bit graph word).

  The kernel works on 50 tiles of 2000 nodes. For each tile it computes the three layers and multiplies the tile's
  0/1 membership matrix `[128, 2000]` (entry `(g, n)` one when node `n`'s word is the word of `g`) with the features,
  which gives the tile's partial per-graph sums; the host adds the 50 partial sums and divides by the per-graph counts.
  The reference computes the layers on all nodes, adds each node's features to its graph's row by an accumulating
  scatter (a word outside `[0, 128)` lands nowhere, as it matches no row of the membership matrix), and divides by the
  same counts.

  On the extended reals both are: at graph `g`, feature `c`, the sum over the nodes of graph `g` of the node's
  three-layer feature, divided by the count. A membership factor keeps a term or makes it `0` for every extended
  real, and sums may be regrouped freely, so the equality needs no finiteness of the inputs. The idealization rewrote
  nothing, so it preserves the kernel trivially.
-/
import proofs.«425669_j3539053052342_3_alg».proof.Defs
import proofs.«425669_j3539053052342_3_alg».proof.Proof.Gen.Kernel
import proofs.«425669_j3539053052342_3_alg».proof.Proof.Gen.Kernel.Skeleton
import proofs.«425669_j3539053052342_3_alg».proof.Proof.Gen.Kernel.Launch
import proofs.«425669_j3539053052342_3_alg».proof.Proof.Gen.Kernel.Points
import proofs.«425669_j3539053052342_3_alg».proof.Proof.Gen.Kernel.Frame
import proofs.«425669_j3539053052342_3_alg».proof.Proof.Gen.KernelIdeal
import proofs.«425669_j3539053052342_3_alg».proof.Proof.Gen.KernelIdeal.Skeleton
import proofs.«425669_j3539053052342_3_alg».proof.Proof.Gen.KernelIdeal.Launch
import proofs.«425669_j3539053052342_3_alg».proof.Proof.Gen.KernelIdeal.Points
import proofs.«425669_j3539053052342_3_alg».proof.Proof.Gen.KernelIdeal.Frame
import proofs.«425669_j3539053052342_3_alg».proof.Proof.Gen.ReferenceIdeal
import proofs.«425669_j3539053052342_3_alg».proof.Proof.Gen.Pre_finite_inputs
import proofs.«425669_j3539053052342_3_alg».proof.Proof.Gen.ReferenceIdeal.Run
import proofs.«425669_j3539053052342_3_alg».proof.Proof.Gen.ReferenceIdeal.Read
import proofs.«425669_j3539053052342_3_alg».proof.Proof.Bridge
import Idealize.ShloMosaic.Adequacy
import Idealize.ShloMosaic.Init

noncomputable section

namespace Cert.Proof

open Idealize.ShloMosaic Idealize.SL.Sem

/-- The kernel's program runs and keeps its arguments. -/
theorem frame_k : Cert.frame_Kernel := fun m ρ _ => Cert.Kernel.Gen.frame m ρ

/-- The idealized kernel's program runs and keeps its arguments. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same result: the kernel's run ends at its
    result, the reference's at its own term of its arguments, which are the kernel's, and the two are one function. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, -, a2, a3, a4, a5, a6, a7, a8⟩ := hagree c
  rw [Cert.ReferenceIdeal.Read.val_main_v24_eq, a0, a2, a3, a4, a5, a6, a7, a8]
  exact (Cert.Bridge.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
